-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x200 : Shape := ⟨2, ![262144, 200]⟩
abbrev S15x9 : Shape := ⟨2, ![15, 9]⟩
abbrev S15x5 : Shape := ⟨2, ![15, 5]⟩
abbrev S15x1 : Shape := ⟨2, ![15, 1]⟩
abbrev S_ : Shape := ⟨0, ![]⟩

class Facts : Prop where
  bcast_S_S262144x200 : S_.BroadcastsInDim S262144x200 (![] : Fin 0 → Fin S262144x200.rank)
  reducesTo_S262144x200_S_d0_1 : S262144x200.ReducesTo [0, 1] S_
  h_S_ : 0 < S_.numel
  bcast_S_S15x9 : S_.BroadcastsInDim S15x9 (![] : Fin 0 → Fin S15x9.rank)
  reducesTo_S15x9_S_d0_1 : S15x9.ReducesTo [0, 1] S_
  bcast_S_S15x5 : S_.BroadcastsInDim S15x5 (![] : Fin 0 → Fin S15x5.rank)
  reducesTo_S15x5_S_d0_1 : S15x5.ReducesTo [0, 1] S_
  bcast_S_S15x1 : S_.BroadcastsInDim S15x1 (![] : Fin 0 → Fin S15x1.rank)
  reducesTo_S15x1_S_d0_1 : S15x1.ReducesTo [0, 1] S_

variable [Facts]

def fn_part1 {F : FTy → Type} [FloatOps F] (main_v13 : IVec S_ 1) (main_v16 : IVec S15x1 1) : IVec S_ 1 :=
  let main_c_5 : IVec S_ 1 := constantI S_ 1 1#1
  let main_v17 : IVec S_ 1 := (fun x v => Host.reduce IntOp.andi x v reducesTo_S15x1_S_d0_1 h_S_) main_v16 main_c_5
  let main_v18 : IVec S_ 1 := andi main_v13 main_v17
  main_v18

def fn {F : FTy → Type} [FloatOps F] (main_arg0 : FVec F S262144x200 .f32) (main_arg1 : FVec F S15x9 .f32) (main_arg2 : FVec F S15x5 .f32) (main_arg3 : FVec F S15x1 .f32) : IVec S_ 1 :=
  let main_v0 : FVec F S262144x200 .f32 := Host.absf main_arg0
  let main_cst : FVec F S_ .f32 := constant S_ .f32 0x7F800000#32
  let main_v1 : FVec F S262144x200 .f32 := broadcastInDim S262144x200 ![] bcast_S_S262144x200 main_cst
  let main_v2 : IVec S262144x200 1 := cmpf .olt main_v0 main_v1
  let main_c : IVec S_ 1 := constantI S_ 1 1#1
  let main_v3 : IVec S_ 1 := (fun x v => Host.reduce IntOp.andi x v reducesTo_S262144x200_S_d0_1 h_S_) main_v2 main_c
  let main_v4 : FVec F S15x9 .f32 := Host.absf main_arg1
  let main_cst_0 : FVec F S_ .f32 := constant S_ .f32 0x7F800000#32
  let main_v5 : FVec F S15x9 .f32 := broadcastInDim S15x9 ![] bcast_S_S15x9 main_cst_0
  let main_v6 : IVec S15x9 1 := cmpf .olt main_v4 main_v5
  let main_c_1 : IVec S_ 1 := constantI S_ 1 1#1
  let main_v7 : IVec S_ 1 := (fun x v => Host.reduce IntOp.andi x v reducesTo_S15x9_S_d0_1 h_S_) main_v6 main_c_1
  let main_v8 : IVec S_ 1 := andi main_v3 main_v7
  let main_v9 : FVec F S15x5 .f32 := Host.absf main_arg2
  let main_cst_2 : FVec F S_ .f32 := constant S_ .f32 0x7F800000#32
  let main_v10 : FVec F S15x5 .f32 := broadcastInDim S15x5 ![] bcast_S_S15x5 main_cst_2
  let main_v11 : IVec S15x5 1 := cmpf .olt main_v9 main_v10
  let main_c_3 : IVec S_ 1 := constantI S_ 1 1#1
  let main_v12 : IVec S_ 1 := (fun x v => Host.reduce IntOp.andi x v reducesTo_S15x5_S_d0_1 h_S_) main_v11 main_c_3
  let main_v13 : IVec S_ 1 := andi main_v8 main_v12
  let main_v14 : FVec F S15x1 .f32 := Host.absf main_arg3
  let main_cst_4 : FVec F S_ .f32 := constant S_ .f32 0x7F800000#32
  let main_v15 : FVec F S15x1 .f32 := broadcastInDim S15x1 ![] bcast_S_S15x1 main_cst_4
  let main_v16 : IVec S15x1 1 := cmpf .olt main_v14 main_v15
  fn_part1 (F := F) main_v13 main_v16
-- ==== Kernel.lean ====
abbrev S262144x200 : Shape := ⟨2, ![262144, 200]⟩
abbrev S15x9 : Shape := ⟨2, ![15, 9]⟩
abbrev S15x5 : Shape := ⟨2, ![15, 5]⟩
abbrev S15x1 : Shape := ⟨2, ![15, 1]⟩
abbrev S81 : Shape := ⟨1, ![81]⟩
abbrev S_ : Shape := ⟨0, ![]⟩
abbrev S200x648 : Shape := ⟨2, ![200, 648]⟩
abbrev S81x1 : Shape := ⟨2, ![81, 1]⟩
abbrev S1x81 : Shape := ⟨2, ![1, 81]⟩
abbrev S1 : Shape := ⟨1, ![1]⟩
abbrev S2 : Shape := ⟨1, ![2]⟩
abbrev S81x5 : Shape := ⟨2, ![81, 5]⟩
abbrev S5x81 : Shape := ⟨2, ![5, 81]⟩
abbrev S81x9 : Shape := ⟨2, ![81, 9]⟩
abbrev S9x81 : Shape := ⟨2, ![9, 81]⟩
abbrev S262144x648 : Shape := ⟨2, ![262144, 648]⟩
abbrev S2048x200 : Shape := ⟨2, ![2048, 200]⟩
abbrev S2048x648 : Shape := ⟨2, ![2048, 648]⟩
abbrev S262144x8x3x3x3x3 : Shape := ⟨6, ![262144, 8, 3, 3, 3, 3]⟩

abbrev nBuf : Space → Nat
  | .hbm => 193
  | .vmem => 5
  | .smem => 0
  | _ => 0

abbrev hbmTy0_0 (i : Nat) : BufTy := match i % 128 with
  | 0 => ⟨S262144x200, .f32⟩
  | 1 => ⟨S15x9, .f32⟩
  | 2 => ⟨S15x5, .f32⟩
  | 3 => ⟨S15x1, .f32⟩
  | 4 => ⟨S81, .i32⟩
  | 5 => ⟨S81, .f32⟩
  | 6 => ⟨S_, .f32⟩
  | 7 => ⟨S200x648, .f32⟩
  | 8 => ⟨S_, .i32⟩
  | 9 => ⟨S81, .i32⟩
  | 10 => ⟨S81, .i1⟩
  | 11 => ⟨S_, .i32⟩
  | 12 => ⟨S81, .i32⟩
  | 13 => ⟨S81, .i32⟩
  | 14 => ⟨S81, .i32⟩
  | 15 => ⟨S81x1, .i32⟩
  | 16 => ⟨S81x1, .f32⟩
  | 17 => ⟨S81x1, .f32⟩
  | 18 => ⟨S81x1, .f32⟩
  | 19 => ⟨S1x81, .f32⟩
  | 20 => ⟨S_, .i32⟩
  | 21 => ⟨S1, .i32⟩
  | 22 => ⟨S_, .i32⟩
  | 23 => ⟨S1, .i32⟩
  | 24 => ⟨S2, .i32⟩
  | 25 => ⟨S200x648, .f32⟩
  | 26 => ⟨S_, .i32⟩
  | 27 => ⟨S1, .i32⟩
  | 28 => ⟨S_, .i32⟩
  | 29 => ⟨S1, .i32⟩
  | 30 => ⟨S2, .i32⟩
  | 31 => ⟨S200x648, .f32⟩
  | 32 => ⟨S_, .i32⟩
  | 33 => ⟨S1, .i32⟩
  | 34 => ⟨S_, .i32⟩
  | 35 => ⟨S1, .i32⟩
  | 36 => ⟨S2, .i32⟩
  | 37 => ⟨S200x648, .f32⟩
  | 38 => ⟨S_, .i32⟩
  | 39 => ⟨S1, .i32⟩
  | 40 => ⟨S_, .i32⟩
  | 41 => ⟨S1, .i32⟩
  | 42 => ⟨S2, .i32⟩
  | 43 => ⟨S200x648, .f32⟩
  | 44 => ⟨S_, .i32⟩
  | 45 => ⟨S1, .i32⟩
  | 46 => ⟨S_, .i32⟩
  | 47 => ⟨S1, .i32⟩
  | 48 => ⟨S2, .i32⟩
  | 49 => ⟨S200x648, .f32⟩
  | 50 => ⟨S_, .i32⟩
  | 51 => ⟨S1, .i32⟩
  | 52 => ⟨S_, .i32⟩
  | 53 => ⟨S1, .i32⟩
  | 54 => ⟨S2, .i32⟩
  | 55 => ⟨S200x648, .f32⟩
  | 56 => ⟨S_, .i32⟩
  | 57 => ⟨S1, .i32⟩
  | 58 => ⟨S_, .i32⟩
  | 59 => ⟨S1, .i32⟩
  | 60 => ⟨S2, .i32⟩
  | 61 => ⟨S200x648, .f32⟩
  | 62 => ⟨S_, .i32⟩
  | 63 => ⟨S1, .i32⟩
  | 64 => ⟨S_, .i32⟩
  | 65 => ⟨S1, .i32⟩
  | 66 => ⟨S2, .i32⟩
  | 67 => ⟨S200x648, .f32⟩
  | 68 => ⟨S_, .i32⟩
  | 69 => ⟨S81, .i32⟩
  | 70 => ⟨S81, .i1⟩
  | 71 => ⟨S_, .i32⟩
  | 72 => ⟨S81, .i32⟩
  | 73 => ⟨S81, .i32⟩
  | 74 => ⟨S81, .i32⟩
  | 75 => ⟨S81x1, .i32⟩
  | 76 => ⟨S81x5, .f32⟩
  | 77 => ⟨S81x1, .f32⟩
  | 78 => ⟨S81x5, .f32⟩
  | 79 => ⟨S81x5, .f32⟩
  | 80 => ⟨S5x81, .f32⟩
  | 81 => ⟨S_, .i32⟩
  | 82 => ⟨S1, .i32⟩
  | 83 => ⟨S_, .i32⟩
  | 84 => ⟨S1, .i32⟩
  | 85 => ⟨S2, .i32⟩
  | 86 => ⟨S200x648, .f32⟩
  | 87 => ⟨S_, .i32⟩
  | 88 => ⟨S1, .i32⟩
  | 89 => ⟨S_, .i32⟩
  | 90 => ⟨S1, .i32⟩
  | 91 => ⟨S2, .i32⟩
  | 92 => ⟨S200x648, .f32⟩
  | 93 => ⟨S_, .i32⟩
  | 94 => ⟨S1, .i32⟩
  | 95 => ⟨S_, .i32⟩
  | 96 => ⟨S1, .i32⟩
  | 97 => ⟨S2, .i32⟩
  | 98 => ⟨S200x648, .f32⟩
  | 99 => ⟨S_, .i32⟩
  | 100 => ⟨S1, .i32⟩
  | 101 => ⟨S_, .i32⟩
  | 102 => ⟨S1, .i32⟩
  | 103 => ⟨S2, .i32⟩
  | 104 => ⟨S200x648, .f32⟩
  | 105 => ⟨S_, .i32⟩
  | 106 => ⟨S1, .i32⟩
  | 107 => ⟨S_, .i32⟩
  | 108 => ⟨S1, .i32⟩
  | 109 => ⟨S2, .i32⟩
  | 110 => ⟨S200x648, .f32⟩
  | 111 => ⟨S_, .i32⟩
  | 112 => ⟨S1, .i32⟩
  | 113 => ⟨S_, .i32⟩
  | 114 => ⟨S1, .i32⟩
  | 115 => ⟨S2, .i32⟩
  | 116 => ⟨S200x648, .f32⟩
  | 117 => ⟨S_, .i32⟩
  | 118 => ⟨S1, .i32⟩
  | 119 => ⟨S_, .i32⟩
  | 120 => ⟨S1, .i32⟩
  | 121 => ⟨S2, .i32⟩
  | 122 => ⟨S200x648, .f32⟩
  | 123 => ⟨S_, .i32⟩
  | 124 => ⟨S1, .i32⟩
  | 125 => ⟨S_, .i32⟩
  | 126 => ⟨S1, .i32⟩
  | 127 => ⟨S2, .i32⟩
  | _ => ⟨S262144x200, .f32⟩

abbrev hbmTy0_1 (i : Nat) : BufTy := match i % 128 with
  | 0 => ⟨S200x648, .f32⟩
  | 1 => ⟨S_, .i32⟩
  | 2 => ⟨S81, .i32⟩
  | 3 => ⟨S81, .i1⟩
  | 4 => ⟨S_, .i32⟩
  | 5 => ⟨S81, .i32⟩
  | 6 => ⟨S81, .i32⟩
  | 7 => ⟨S81, .i32⟩
  | 8 => ⟨S81x1, .i32⟩
  | 9 => ⟨S81x9, .f32⟩
  | 10 => ⟨S81x1, .f32⟩
  | 11 => ⟨S81x9, .f32⟩
  | 12 => ⟨S81x9, .f32⟩
  | 13 => ⟨S9x81, .f32⟩
  | 14 => ⟨S_, .i32⟩
  | 15 => ⟨S1, .i32⟩
  | 16 => ⟨S_, .i32⟩
  | 17 => ⟨S1, .i32⟩
  | 18 => ⟨S2, .i32⟩
  | 19 => ⟨S200x648, .f32⟩
  | 20 => ⟨S_, .i32⟩
  | 21 => ⟨S1, .i32⟩
  | 22 => ⟨S_, .i32⟩
  | 23 => ⟨S1, .i32⟩
  | 24 => ⟨S2, .i32⟩
  | 25 => ⟨S200x648, .f32⟩
  | 26 => ⟨S_, .i32⟩
  | 27 => ⟨S1, .i32⟩
  | 28 => ⟨S_, .i32⟩
  | 29 => ⟨S1, .i32⟩
  | 30 => ⟨S2, .i32⟩
  | 31 => ⟨S200x648, .f32⟩
  | 32 => ⟨S_, .i32⟩
  | 33 => ⟨S1, .i32⟩
  | 34 => ⟨S_, .i32⟩
  | 35 => ⟨S1, .i32⟩
  | 36 => ⟨S2, .i32⟩
  | 37 => ⟨S200x648, .f32⟩
  | 38 => ⟨S_, .i32⟩
  | 39 => ⟨S1, .i32⟩
  | 40 => ⟨S_, .i32⟩
  | 41 => ⟨S1, .i32⟩
  | 42 => ⟨S2, .i32⟩
  | 43 => ⟨S200x648, .f32⟩
  | 44 => ⟨S_, .i32⟩
  | 45 => ⟨S1, .i32⟩
  | 46 => ⟨S_, .i32⟩
  | 47 => ⟨S1, .i32⟩
  | 48 => ⟨S2, .i32⟩
  | 49 => ⟨S200x648, .f32⟩
  | 50 => ⟨S_, .i32⟩
  | 51 => ⟨S1, .i32⟩
  | 52 => ⟨S_, .i32⟩
  | 53 => ⟨S1, .i32⟩
  | 54 => ⟨S2, .i32⟩
  | 55 => ⟨S200x648, .f32⟩
  | 56 => ⟨S_, .i32⟩
  | 57 => ⟨S1, .i32⟩
  | 58 => ⟨S_, .i32⟩
  | 59 => ⟨S1, .i32⟩
  | 60 => ⟨S2, .i32⟩
  | 61 => ⟨S200x648, .f32⟩
  | 62 => ⟨S200x648, .bf16⟩
  | 63 => ⟨S262144x648, .f32⟩
  | 64 => ⟨S262144x8x3x3x3x3, .f32⟩
  | _ => ⟨S262144x200, .f32⟩

abbrev hbmTy (i : Nat) : BufTy := match i / 128 with
  | 0 => hbmTy0_0 i
  | 1 => hbmTy0_1 i
  | _ => ⟨S262144x200, .f32⟩

abbrev bufTy : (tb : Table) → Fin (tcTables nBuf tb) → BufTy
  | .hbm, ⟨i, _⟩ => hbmTy i
  | .local _ .vmem, ⟨0, _⟩ => ⟨S2048x200, .f32⟩
  | .local _ .vmem, ⟨1, _⟩ => ⟨S2048x200, .f32⟩
  | .local _ .vmem, ⟨2, _⟩ => ⟨S200x648, .bf16⟩
  | .local _ .vmem, ⟨3, _⟩ => ⟨S2048x648, .f32⟩
  | .local _ .vmem, ⟨4, _⟩ => ⟨S2048x648, .f32⟩
  | _, _ => ⟨S262144x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_c_1 : Ref sig .tc := ⟨.hbm, 8, rfl⟩
abbrev main_v1 : Ref sig .tc := ⟨.hbm, 9, rfl⟩
abbrev main_v2 : Ref sig .tc := ⟨.hbm, 10, rfl⟩
abbrev main_c_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_5 : Ref sig .tc := ⟨.hbm, 26, rfl⟩
abbrev main_v15 : Ref sig .tc := ⟨.hbm, 27, rfl⟩
abbrev main_c_6 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_7 : Ref sig .tc := ⟨.hbm, 32, rfl⟩
abbrev main_v19 : Ref sig .tc := ⟨.hbm, 33, rfl⟩
abbrev main_c_8 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_9 : Ref sig .tc := ⟨.hbm, 38, rfl⟩
abbrev main_v23 : Ref sig .tc := ⟨.hbm, 39, rfl⟩
abbrev main_c_10 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_11 : Ref sig .tc := ⟨.hbm, 44, rfl⟩
abbrev main_v27 : Ref sig .tc := ⟨.hbm, 45, rfl⟩
abbrev main_c_12 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_13 : Ref sig .tc := ⟨.hbm, 50, rfl⟩
abbrev main_v31 : Ref sig .tc := ⟨.hbm, 51, rfl⟩
abbrev main_c_14 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_15 : Ref sig .tc := ⟨.hbm, 56, rfl⟩
abbrev main_v35 : Ref sig .tc := ⟨.hbm, 57, rfl⟩
abbrev main_c_16 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_17 : Ref sig .tc := ⟨.hbm, 62, rfl⟩
abbrev main_v39 : Ref sig .tc := ⟨.hbm, 63, rfl⟩
abbrev main_c_18 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_19 : Ref sig .tc := ⟨.hbm, 68, rfl⟩
abbrev main_v43 : Ref sig .tc := ⟨.hbm, 69, rfl⟩
abbrev main_v44 : Ref sig .tc := ⟨.hbm, 70, rfl⟩
abbrev main_c_20 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_21 : Ref sig .tc := ⟨.hbm, 81, rfl⟩
abbrev main_v54 : Ref sig .tc := ⟨.hbm, 82, rfl⟩
abbrev main_c_22 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_23 : Ref sig .tc := ⟨.hbm, 87, rfl⟩
abbrev main_v58 : Ref sig .tc := ⟨.hbm, 88, rfl⟩
abbrev main_c_24 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_25 : Ref sig .tc := ⟨.hbm, 93, rfl⟩
abbrev main_v62 : Ref sig .tc := ⟨.hbm, 94, rfl⟩
abbrev main_c_26 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_27 : Ref sig .tc := ⟨.hbm, 99, rfl⟩
abbrev main_v66 : Ref sig .tc := ⟨.hbm, 100, rfl⟩
abbrev main_c_28 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_29 : Ref sig .tc := ⟨.hbm, 105, rfl⟩
abbrev main_v70 : Ref sig .tc := ⟨.hbm, 106, rfl⟩
abbrev main_c_30 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_31 : Ref sig .tc := ⟨.hbm, 111, rfl⟩
abbrev main_v74 : Ref sig .tc := ⟨.hbm, 112, rfl⟩
abbrev main_c_32 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_33 : Ref sig .tc := ⟨.hbm, 117, rfl⟩
abbrev main_v78 : Ref sig .tc := ⟨.hbm, 118, rfl⟩
abbrev main_c_34 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_c_35 : Ref sig .tc := ⟨.hbm, 123, rfl⟩
abbrev main_v82 : Ref sig .tc := ⟨.hbm, 124, rfl⟩
abbrev main_c_36 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_c_37 : Ref sig .tc := ⟨.hbm, 129, rfl⟩
abbrev main_v86 : Ref sig .tc := ⟨.hbm, 130, rfl⟩
abbrev main_v87 : Ref sig .tc := ⟨.hbm, 131, rfl⟩
abbrev main_c_38 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_c_39 : Ref sig .tc := ⟨.hbm, 142, rfl⟩
abbrev main_v97 : Ref sig .tc := ⟨.hbm, 143, rfl⟩
abbrev main_c_40 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_c_41 : Ref sig .tc := ⟨.hbm, 148, rfl⟩
abbrev main_v101 : Ref sig .tc := ⟨.hbm, 149, rfl⟩
abbrev main_c_42 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_c_43 : Ref sig .tc := ⟨.hbm, 154, rfl⟩
abbrev main_v105 : Ref sig .tc := ⟨.hbm, 155, rfl⟩
abbrev main_c_44 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_c_45 : Ref sig .tc := ⟨.hbm, 160, rfl⟩
abbrev main_v109 : Ref sig .tc := ⟨.hbm, 161, rfl⟩
abbrev main_c_46 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_c_47 : Ref sig .tc := ⟨.hbm, 166, rfl⟩
abbrev main_v113 : Ref sig .tc := ⟨.hbm, 167, rfl⟩
abbrev main_c_48 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_c_49 : Ref sig .tc := ⟨.hbm, 172, rfl⟩
abbrev main_v117 : Ref sig .tc := ⟨.hbm, 173, rfl⟩
abbrev main_c_50 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_c_51 : Ref sig .tc := ⟨.hbm, 178, rfl⟩
abbrev main_v121 : Ref sig .tc := ⟨.hbm, 179, rfl⟩
abbrev main_c_52 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_c_53 : Ref sig .tc := ⟨.hbm, 184, rfl⟩
abbrev main_v125 : Ref sig .tc := ⟨.hbm, 185, rfl⟩
abbrev main_c_54 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x648 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x648 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S200x648 : S_.BroadcastsInDim S200x648 (![] : Fin 0 → Fin S200x648.rank)
  bcast_S_S81 : S_.BroadcastsInDim S81 (![] : Fin 0 → Fin S81.rank)
  bcast_S81_S81x1_0 : S81.BroadcastsInDim S81x1 (![0] : Fin 1 → Fin S81x1.rank)
  transposes_S81x1_S1x81_1_0 : S81x1.Transposes [1, 0] S1x81
  bcast_S_S1 : S_.BroadcastsInDim S1 (![] : Fin 0 → Fin S1.rank)
  concatenates_S1_S1_S2_d0 : Shape.Concatenates [S1, S1] S2 0
  bcast_S81x1_S81x5_0_1 : S81x1.BroadcastsInDim S81x5 (![0, 1] : Fin 2 → Fin S81x5.rank)
  transposes_S81x5_S5x81_1_0 : S81x5.Transposes [1, 0] S5x81
  bcast_S81x1_S81x9_0_1 : S81x1.BroadcastsInDim S81x9 (![0, 1] : Fin 2 → Fin S81x9.rank)
  transposes_S81x9_S9x81_1_0 : S81x9.Transposes [1, 0] S9x81
  bitsLt_bf16_f32 : FTy.bits .bf16 < FTy.bits .f32
  inb_S2048x200_S2048x200_0_0 : ∀ a, (![0, 0] : Fin 2 → Nat) a + S2048x200.size a ≤ S2048x200.size a
  h_S2048x200 : 0 < S2048x200.numel
  inb_S200x648_S200x648_0_0 : ∀ a, (![0, 0] : Fin 2 → Nat) a + S200x648.size a ≤ S200x648.size a
  h_S200x648 : 0 < S200x648.numel
  shapeCasts_S200x648_S200x648 : S200x648.ShapeCasts S200x648
  inb_S2048x648_S2048x648_0_0 : ∀ a, (![0, 0] : Fin 2 → Nat) a + S2048x648.size a ≤ S2048x648.size a
  h_S2048x648 : 0 < S2048x648.numel
  shapeCasts_S262144x648_S262144x8x3x3x3x3 : S262144x648.ShapeCasts S262144x8x3x3x3x3
  gather_S15x1_S81x1_S81x1_1_0_n_n_0_1_11_wf : GatherDims.WF S15x1 S81x1 S81x1 [1] [0] [] [0] [] 1 ![1, 1]
  scatter_S200x648_S2_S1x81_01_n_01_0_wf : ScatterDims.WF S200x648 S2 S1x81 [0, 1] [] [0, 1] 0
  gather_S15x5_S81x1_S81x5_1_0_n_n_0_1_15_wf : GatherDims.WF S15x5 S81x1 S81x5 [1] [0] [] [0] [] 1 ![1, 5]
  scatter_S200x648_S2_S5x81_01_n_01_0_wf : ScatterDims.WF S200x648 S2 S5x81 [0, 1] [] [0, 1] 0
  gather_S15x9_S81x1_S81x9_1_0_n_n_0_1_19_wf : GatherDims.WF S15x9 S81x1 S81x9 [1] [0] [] [0] [] 1 ![1, 9]
  scatter_S200x648_S2_S9x81_01_n_01_0_wf : ScatterDims.WF S200x648 S2 S9x81 [0, 1] [] [0, 1] 0
  dot_S2048x200_S200x648_S2048x648_1_0_0_1_n_n_wf : DotDims.WF S2048x200 S200x648 S2048x648 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x200.size a ≤ S262144x200.size a
  hwx0_0 : ∀ i : grid0.Coords, EltTy.bits .f32 = 32 ∨ (Rect.block (s := S262144x200) S2048x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x648.size a ≤ S200x648.size a
  hwx0_1 : ∀ i : grid0.Coords, EltTy.bits .bf16 = 32 ∨ (Rect.block (s := S200x648) S200x648.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x648.size a ≤ S262144x648.size a
  hwx0_2 : ∀ i : grid0.Coords, EltTy.bits .f32 = 32 ∨ (Rect.block (s := S262144x648) S2048x648.size (cc0_transform_2 i) (hinb0_2 i)).WholeWords (EltTy.packing .f32)

variable [Facts₀]

def gather_S15x1_S81x1_S81x1_1_0_n_n_0_1_11 : GatherDims S15x1 S81x1 S81x1 where
  offsetDims := [1]
  collapsedSliceDims := [0]
  operandBatchingDims := []
  startIndicesBatchingDims := []
  startIndexMap := [0]
  indexVectorDim := 1
  sliceSizes := ![1, 1]
  wf := gather_S15x1_S81x1_S81x1_1_0_n_n_0_1_11_wf
def scatter_S200x648_S2_S1x81_01_n_01_0 : ScatterDims S200x648 S2 S1x81 where
  updateWindowDims := [0, 1]
  insertedWindowDims := []
  scatterDimsToOperandDims := [0, 1]
  indexVectorDim := 0
  wf := scatter_S200x648_S2_S1x81_01_n_01_0_wf
def gather_S15x5_S81x1_S81x5_1_0_n_n_0_1_15 : GatherDims S15x5 S81x1 S81x5 where
  offsetDims := [1]
  collapsedSliceDims := [0]
  operandBatchingDims := []
  startIndicesBatchingDims := []
  startIndexMap := [0]
  indexVectorDim := 1
  sliceSizes := ![1, 5]
  wf := gather_S15x5_S81x1_S81x5_1_0_n_n_0_1_15_wf
def scatter_S200x648_S2_S5x81_01_n_01_0 : ScatterDims S200x648 S2 S5x81 where
  updateWindowDims := [0, 1]
  insertedWindowDims := []
  scatterDimsToOperandDims := [0, 1]
  indexVectorDim := 0
  wf := scatter_S200x648_S2_S5x81_01_n_01_0_wf
def gather_S15x9_S81x1_S81x9_1_0_n_n_0_1_19 : GatherDims S15x9 S81x1 S81x9 where
  offsetDims := [1]
  collapsedSliceDims := [0]
  operandBatchingDims := []
  startIndicesBatchingDims := []
  startIndexMap := [0]
  indexVectorDim := 1
  sliceSizes := ![1, 9]
  wf := gather_S15x9_S81x1_S81x9_1_0_n_n_0_1_19_wf
def scatter_S200x648_S2_S9x81_01_n_01_0 : ScatterDims S200x648 S2 S9x81 where
  updateWindowDims := [0, 1]
  insertedWindowDims := []
  scatterDimsToOperandDims := [0, 1]
  indexVectorDim := 0
  wf := scatter_S200x648_S2_S9x81_01_n_01_0_wf
def dot_S2048x200_S200x648_S2048x648_1_0_0_1_n_n : DotDims S2048x200 S200x648 S2048x648 where
  lhsContracting := [1]
  rhsContracting := [0]
  lhsNonContracting := [0]
  rhsNonContracting := [1]
  lhsBatch := []
  rhsBatch := []
  wf := dot_S2048x200_S200x648_S2048x648_1_0_0_1_n_n_wf

abbrev win0_0 : Pipeline.Window sig grid0 :=
  Pipeline.Window.ofSpec (Memref.whole main_arg0) S2048x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v129) S200x648.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v130) S2048x648.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x200 : Shape := ⟨2, ![262144, 200]⟩
abbrev S15x9 : Shape := ⟨2, ![15, 9]⟩
abbrev S15x5 : Shape := ⟨2, ![15, 5]⟩
abbrev S15x1 : Shape := ⟨2, ![15, 1]⟩
abbrev S81 : Shape := ⟨1, ![81]⟩
abbrev S262144x8 : Shape := ⟨2, ![262144, 8]⟩
abbrev S262144x8x1 : Shape := ⟨3, ![262144, 8, 1]⟩
abbrev S262144x24 : Shape := ⟨2, ![262144, 24]⟩
abbrev S262144x8x3 : Shape := ⟨3, ![262144, 8, 3]⟩
abbrev S262144x40 : Shape := ⟨2, ![262144, 40]⟩
abbrev S262144x8x5 : Shape := ⟨3, ![262144, 8, 5]⟩
abbrev S262144x56 : Shape := ⟨2, ![262144, 56]⟩
abbrev S262144x8x7 : Shape := ⟨3, ![262144, 8, 7]⟩
abbrev S262144x72 : Shape := ⟨2, ![262144, 72]⟩
abbrev S262144x8x9 : Shape := ⟨3, ![262144, 8, 9]⟩
abbrev S262144x8x15 : Shape := ⟨3, ![262144, 8, 15]⟩
abbrev S_ : Shape := ⟨0, ![]⟩
abbrev S81x1 : Shape := ⟨2, ![81, 1]⟩
abbrev S262144x8x81 : Shape := ⟨3, ![262144, 8, 81]⟩
abbrev S1x1x81 : Shape := ⟨3, ![1, 1, 81]⟩
abbrev S262144x8x3x3x3x3 : Shape := ⟨6, ![262144, 8, 3, 3, 3, 3]⟩

abbrev nBuf : Space → Nat
  | .hbm => 37
  | .vmem => 0
  | .smem => 0
  | _ => 0

abbrev bufTy : (tb : Table) → Fin (tcTables nBuf tb) → BufTy
  | .hbm, ⟨0, _⟩ => ⟨S262144x200, .f32⟩
  | .hbm, ⟨1, _⟩ => ⟨S15x9, .f32⟩
  | .hbm, ⟨2, _⟩ => ⟨S15x5, .f32⟩
  | .hbm, ⟨3, _⟩ => ⟨S15x1, .f32⟩
  | .hbm, ⟨4, _⟩ => ⟨S81, .i32⟩
  | .hbm, ⟨5, _⟩ => ⟨S81, .f32⟩
  | .hbm, ⟨6, _⟩ => ⟨S262144x8, .f32⟩
  | .hbm, ⟨7, _⟩ => ⟨S262144x8x1, .f32⟩
  | .hbm, ⟨8, _⟩ => ⟨S262144x24, .f32⟩
  | .hbm, ⟨9, _⟩ => ⟨S262144x8x3, .f32⟩
  | .hbm, ⟨10, _⟩ => ⟨S262144x40, .f32⟩
  | .hbm, ⟨11, _⟩ => ⟨S262144x8x5, .f32⟩
  | .hbm, ⟨12, _⟩ => ⟨S262144x56, .f32⟩
  | .hbm, ⟨13, _⟩ => ⟨S262144x8x7, .f32⟩
  | .hbm, ⟨14, _⟩ => ⟨S262144x72, .f32⟩
  | .hbm, ⟨15, _⟩ => ⟨S262144x8x9, .f32⟩
  | .hbm, ⟨16, _⟩ => ⟨S262144x8x15, .f32⟩
  | .hbm, ⟨17, _⟩ => ⟨S_, .f32⟩
  | .hbm, ⟨18, _⟩ => ⟨S262144x8x15, .f32⟩
  | .hbm, ⟨19, _⟩ => ⟨S262144x8x15, .f32⟩
  | .hbm, ⟨20, _⟩ => ⟨S262144x8x15, .f32⟩
  | .hbm, ⟨21, _⟩ => ⟨S262144x8x15, .f32⟩
  | .hbm, ⟨22, _⟩ => ⟨S262144x8x15, .f32⟩
  | .hbm, ⟨23, _⟩ => ⟨S262144x8x15, .f32⟩
  | .hbm, ⟨24, _⟩ => ⟨S_, .i32⟩
  | .hbm, ⟨25, _⟩ => ⟨S81, .i32⟩
  | .hbm, ⟨26, _⟩ => ⟨S81, .i1⟩
  | .hbm, ⟨27, _⟩ => ⟨S_, .i32⟩
  | .hbm, ⟨28, _⟩ => ⟨S81, .i32⟩
  | .hbm, ⟨29, _⟩ => ⟨S81, .i32⟩
  | .hbm, ⟨30, _⟩ => ⟨S81, .i32⟩
  | .hbm, ⟨31, _⟩ => ⟨S81x1, .i32⟩
  | .hbm, ⟨32, _⟩ => ⟨S262144x8x81, .f32⟩
  | .hbm, ⟨33, _⟩ => ⟨S1x1x81, .f32⟩
  | .hbm, ⟨34, _⟩ => ⟨S262144x8x81, .f32⟩
  | .hbm, ⟨35, _⟩ => ⟨S262144x8x81, .f32⟩
  | .hbm, ⟨36, _⟩ => ⟨S262144x8x3x3x3x3, .f32⟩
  | _, _ => ⟨S262144x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  slices_S262144x200_S262144x8_0_0 : S262144x200.Slices ![0, 0] S262144x8
  shapeCasts_S262144x8_S262144x8x1 : S262144x8.ShapeCasts S262144x8x1
  slices_S262144x200_S262144x24_0_8 : S262144x200.Slices ![0, 8] S262144x24
  shapeCasts_S262144x24_S262144x8x3 : S262144x24.ShapeCasts S262144x8x3
  slices_S262144x200_S262144x40_0_32 : S262144x200.Slices ![0, 32] S262144x40
  shapeCasts_S262144x40_S262144x8x5 : S262144x40.ShapeCasts S262144x8x5
  slices_S262144x200_S262144x56_0_72 : S262144x200.Slices ![0, 72] S262144x56
  shapeCasts_S262144x56_S262144x8x7 : S262144x56.ShapeCasts S262144x8x7
  slices_S262144x200_S262144x72_0_128 : S262144x200.Slices ![0, 128] S262144x72
  shapeCasts_S262144x72_S262144x8x9 : S262144x72.ShapeCasts S262144x8x9
  bcast_S_S262144x8x15 : S_.BroadcastsInDim S262144x8x15 (![] : Fin 0 → Fin S262144x8x15.rank)
  bcast_S_S81 : S_.BroadcastsInDim S81 (![] : Fin 0 → Fin S81.rank)
  bcast_S81_S81x1_0 : S81.BroadcastsInDim S81x1 (![0] : Fin 1 → Fin S81x1.rank)
  bcast_S81_S1x1x81_2 : S81.BroadcastsInDim S1x1x81 (![2] : Fin 1 → Fin S1x1x81.rank)
  bcast_S1x1x81_S262144x8x81_0_1_2 : S1x1x81.BroadcastsInDim S262144x8x81 (![0, 1, 2] : Fin 3 → Fin S262144x8x81.rank)
  shapeCasts_S262144x8x81_S262144x8x3x3x3x3 : S262144x8x81.ShapeCasts S262144x8x3x3x3x3
  dot_S262144x8x9_S15x9_S262144x8x15_2_1_01_0_n_n_wf : DotDims.WF S262144x8x9 S15x9 S262144x8x15 [2] [1] [0, 1] [0] [] []
  dot_S262144x8x5_S15x5_S262144x8x15_2_1_01_0_n_n_wf : DotDims.WF S262144x8x5 S15x5 S262144x8x15 [2] [1] [0, 1] [0] [] []
  dot_S262144x8x1_S15x1_S262144x8x15_2_1_01_0_n_n_wf : DotDims.WF S262144x8x1 S15x1 S262144x8x15 [2] [1] [0, 1] [0] [] []
  gather_S262144x8x15_S81x1_S262144x8x81_01_2_n_n_2_1_26214481_wf : GatherDims.WF S262144x8x15 S81x1 S262144x8x81 [0, 1] [2] [] [2] [] 1 ![262144, 8, 1]

variable [Facts₀]

def dot_S262144x8x9_S15x9_S262144x8x15_2_1_01_0_n_n : DotDims S262144x8x9 S15x9 S262144x8x15 where
  lhsContracting := [2]
  rhsContracting := [1]
  lhsNonContracting := [0, 1]
  rhsNonContracting := [0]
  lhsBatch := []
  rhsBatch := []
  wf := dot_S262144x8x9_S15x9_S262144x8x15_2_1_01_0_n_n_wf
def dot_S262144x8x5_S15x5_S262144x8x15_2_1_01_0_n_n : DotDims S262144x8x5 S15x5 S262144x8x15 where
  lhsContracting := [2]
  rhsContracting := [1]
  lhsNonContracting := [0, 1]
  rhsNonContracting := [0]
  lhsBatch := []
  rhsBatch := []
  wf := dot_S262144x8x5_S15x5_S262144x8x15_2_1_01_0_n_n_wf
def dot_S262144x8x1_S15x1_S262144x8x15_2_1_01_0_n_n : DotDims S262144x8x1 S15x1 S262144x8x15 where
  lhsContracting := [2]
  rhsContracting := [1]
  lhsNonContracting := [0, 1]
  rhsNonContracting := [0]
  lhsBatch := []
  rhsBatch := []
  wf := dot_S262144x8x1_S15x1_S262144x8x15_2_1_01_0_n_n_wf
def gather_S262144x8x15_S81x1_S262144x8x81_01_2_n_n_2_1_26214481 : GatherDims S262144x8x15 S81x1 S262144x8x81 where
  offsetDims := [0, 1]
  collapsedSliceDims := [2]
  operandBatchingDims := []
  startIndicesBatchingDims := []
  startIndexMap := [2]
  indexVectorDim := 1
  sliceSizes := ![262144, 8, 1]
  wf := gather_S262144x8x15_S81x1_S262144x8x81_01_2_n_n_2_1_26214481_wf

class Facts : Prop extends Facts₀ where

variable [Facts]
-- ==== Proof.LibPlainDot.lean ====
/-
  A plain two-dimensional matrix product read at an entry.

  For a dot whose dimension numbers are those of `rows × contraction` times `contraction × columns` — left
  contracting axis 1, right contracting axis 0, the remaining left axis then the remaining right axis as the result's
  axes, no batch axis — the left operand's index at result entry `(p, q)` and contraction position `k` is `(p, k)`,
  the right operand's is `(k, q)`. So, on the extended reals, a kernel's `matmul` into the zero accumulator and a
  host `dot_general` are both the textbook sum `∑ k, l (p, k) * r (k, q)` over `k : Fin K`.

  The dimension record is a variable; its printed fields enter as hypotheses (each is `rfl` for a printed record).
-/
import Idealize.ShloMosaic.PureOps.Ideal
import Idealize.ShloMosaic.PureOps.Ideal.Laws
import Idealize.ShloMosaic.Lib.ValueIdx

noncomputable section

namespace Cert.PlainDot

open Idealize.ShloMosaic Idealize.ShloMosaic.ValueIdx

variable {R K C : ℕ} (d : DotDims (⟨2, ![R, K]⟩ : Shape) (⟨2, ![K, C]⟩ : Shape) (⟨2, ![R, C]⟩ : Shape))

/-- A coordinate of an index depends only on the axis' position. -/
private theorem coord_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hlb : d.lhsBatch = []) (hln : d.lhsNonContracting = [0])
    (j : (⟨2, ![R, C]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The left operand's column is the contraction position. -/
theorem lhs_col (hlc : d.lhsContracting = [1]) (j : (⟨2, ![R, C]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![R, C]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0]) (hrn : d.rhsNonContracting = [1])
    (j : (⟨2, ![R, C]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction shape has one axis, of extent `K`. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  rw [d.size_contr 0 (by rw [hlc]; exact Nat.one_pos)]
  simp [hlc]

/-- THE SUM over the dot's own contraction index, re-indexed by `k : Fin K` with the operands read at `(p, k)` and `(k, q)`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![R, K]⟩ : Shape).Idx → EReal) (r : (⟨2, ![K, C]⟩ : Shape).Idx → EReal) (p : Fin R) (q : Fin C) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_row d hlb hln _ _
    | ⟨1, _⟩ => exact (lhs_col d hlc _ _).trans hk
  have er : d.rhsIdx (ix2 p q) ((contrEquiv1 d K (contr_rank d hlc) (contr_size d hlc)).symm k) = ix2 k q := by
    funext a; apply Fin.ext
    match a with
    | ⟨0, _⟩ => exact (rhs_row d hrc _ _).trans hk
    | ⟨1, _⟩ => exact rhs_col d hlb hrb hln hrn _ _
  rw [el, er]

/-- A kernel's matrix product into the zero accumulator, at an entry, on the extended reals. -/
theorem matmul_zero_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (l : FVec Ideal (⟨2, ![R, K]⟩ : Shape) φ₁) (r : FVec Ideal (⟨2, ![K, C]⟩ : Shape) φ₂) (p : Fin R) (q : Fin C) :
    FloatOps.matmul d prec l r (constant (⟨2, ![R, C]⟩ : Shape) .f32 0x00000000#32) (ix2 p q) = ∑ k : Fin K, l (ix2 p k) * r (ix2 k q) :=
  (Ideal.matmul_constant_zero_apply d prec l r (ix2 p q)).trans (sum_contr d hlc hrc hln hrn hlb hrb l r p q)

/-- The host's `dot_general`, at an entry, on the extended reals: the same sum. -/
theorem dotGeneral_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision) (sched : HostSchedule)
    (l : FVec Ideal (⟨2, ![R, K]⟩ : Shape) φ₁) (r : FVec Ideal (⟨2, ![K, C]⟩ : Shape) φ₂) (p : Fin R) (q : Fin C) :
    FloatOps.dotGeneral d prec sched l r (ix2 p q) = ∑ k : Fin K, l (ix2 p k) * r (ix2 k q) :=
  (Ideal.dotGeneral_apply d prec sched l r (ix2 p q)).trans (sum_contr d hlc hrc hln hrn hlb hrb l r p q)

end Cert.PlainDot

end
-- ==== Proof.KernelValue.lean ====
/-
  What the kernel's program leaves in its result, on the extended reals.

  The one pallas_call runs over 128 grid points; point `t` loads rows `2048 t … 2048 t + 2047` of `x` and the whole
  folded matrix `W`, and stores their product into the same rows of the output. A change of float format is the
  identity here and the product accumulates onto zero, so entry `(p, q)` of a block is `∑ k, x (p, k) * W (k, q)`; the
  128 blocks tile the output, which therefore ends as the one whole-array product `prod x W`. The host line after the
  launch reshapes it to `[B, 8, 3, 3, 3, 3]`, and no host line writes an argument.
-/
import proofs.«163621_j26628797235368_1_alg».proof.Proof.Gen.KernelIdeal.Frame
import proofs.«163621_j26628797235368_1_alg».proof.Proof.LibPlainDot
import Idealize.ShloMosaic.Lib.Pipeline.Value
import Idealize.ShloMosaic.Lib.ValueIdx
import Idealize.ShloMosaic.Lib.StableHlo.Run
import Idealize.ShloMosaic.PureOps.Ideal
import Idealize.ShloMosaic.PureOps.Ideal.Laws

set_option maxRecDepth 16384

noncomputable section

namespace Cert.KernelIdeal.KVal

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The whole-array product: entry `(p, q)` is `∑ k, X (p, k) * W (k, q)`. -/
def prod (X : FVec Ideal S262144x200 .f32) (Wm : FVec Ideal S200x648 .bf16) : FVec Ideal S262144x648 .f32 :=
  fun i => ∑ k : Fin 200, X (ix2 (⟨(i 0).val, (i 0).isLt⟩ : Fin 262144) k) * Wm (ix2 k (⟨(i 1).val, (i 1).isLt⟩ : Fin 648))

theorem prod_apply (X : FVec Ideal S262144x200 .f32) (Wm : FVec Ideal S200x648 .bf16) (p : Fin 262144) (q : Fin 648) :
    prod X Wm (ix2 p q) = ∑ k : Fin 200, X (ix2 p k) * Wm (ix2 k q) := rfl

/-- The body's one stored value at entry `(p, q)` of its block: the loaded blocks' product there. -/
theorem pay_apply (x0 : Vec Ideal S2048x200 .f32) (x1 : Vec Ideal S200x648 .bf16) (p : Fin 2048) (q : Fin 648) :
    k0_pay1 x0 x1 (ix2 p q) = ∑ k : Fin 200, x0 (ix2 p k) * x1 (ix2 k q) := by
  unfold k0_pay1
  show matmul dot_S2048x200_S200x648_S2048x648_1_0_0_1_n_n none (truncf .bf16 x0 bitsLt_bf16_f32 : FVec Ideal S2048x200 .bf16)
    (shapeCast S200x648 (x1 : FVec Ideal S200x648 .bf16) shapeCasts_S200x648_S200x648 : FVec Ideal S200x648 .bf16)
    (constant S2048x648 .f32 0x00000000#32 : FVec Ideal S2048x648 .f32) (ix2 p q) = _
  rw [shapeCast_self]
  exact Cert.PlainDot.matmul_zero_apply dot_S2048x200_S200x648_S2048x648_1_0_0_1_n_n rfl rfl rfl rfl rfl rfl none _ _ p q

private theorem zeros2 : (![0, 0] : Fin 2 → Nat) = fun _ => 0 := funext fun a => by fin_cases a <;> rfl

/-- The printed index maps, decided over the grid: the rows' window and the output's move with the point, the folded
    matrix's window stays. -/
private theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the whole-array product of the arrays as the launch finds them. -/
theorem flushed_eq (c : Dev nD) (t : Fin cfg0.N) :
    (dats m 0 c).flushed 2 t
      = ((cfg0.win 2).blk t).view.read (Elt Ideal) (prod (V m c main_arg0) (V m c main_v129)) := by
  show (cfg0.win 2).cut (grid0.coords t) ((dats m 0 c).after 2 t) = _
  rw [after0_2]
  unfold out0_2
  rw [View.canon_unit_zero zeros2]
  simp only [View.ld_unit_zero (S := S2048x200) zeros2, View.ld_unit_zero (S := S200x648) zeros2]
  obtain ⟨e0, e1, e2, e3, e4, e5⟩ := idx_facts t
  funext j
  obtain ⟨p, q, rfl⟩ : ∃ (p : Fin 2048) (q : Fin 648), j = ix2 p q := ⟨j 0, j 1, eq_ix2 j⟩
  show k0_pay1 (iblk m c 0 t) (iblk m c 1 t) (ix2 p q) = _
  refine (pay_apply (iblk m c 0 t) (iblk m c 1 t) p q).trans ?_
  show _ = prod (V m c main_arg0) (V m c main_v129) (((cfg0.win 2).blk t).view.emb (ix2 p q))
  unfold prod
  refine Finset.sum_congr rfl fun k _ => ?_
  refine congrArg₂ (· * ·) ?_ ?_
  · show V m c main_arg0 (((cfg0.win 0).blk t).view.emb (ix2 p k)) = V m c main_arg0 (ix2 _ k)
    refine congrArg (V m c main_arg0) ?_
    funext a; apply Fin.ext
    match a with
    | ⟨0, _⟩ =>
      show win0_0.index t (0 : Fin 2) * 2048 + 1 * p.val = win0_2.index t (0 : Fin 2) * 2048 + 1 * p.val
      rw [e0, e4]
    | ⟨1, _⟩ =>
      show win0_0.index t (1 : Fin 2) * 200 + 1 * k.val = k.val
      rw [e1, Nat.zero_mul, Nat.zero_add, Nat.one_mul]
  · show V m c main_v129 (((cfg0.win 1).blk t).view.emb (ix2 k q)) = V m c main_v129 (ix2 k _)
    refine congrArg (V m c main_v129) ?_
    funext a; apply Fin.ext
    match a with
    | ⟨0, _⟩ =>
      show win0_1.index t (0 : Fin 2) * 200 + 1 * k.val = k.val
      rw [e2, Nat.zero_mul, Nat.zero_add, Nat.one_mul]
    | ⟨1, _⟩ =>
      show win0_1.index t (1 : Fin 2) * 648 + 1 * q.val = win0_2.index t (1 : Fin 2) * 648 + 1 * q.val
      rw [e3, e5]

/-- An index of the output is in point `t`'s block iff each coordinate is in the block's range on its axis. -/
private theorem mem_blk (t : Fin cfg0.N) (i : S262144x648.Idx) :
    i ∈ ((cfg0.win 2).blk t).view.set ↔ ∀ a : Fin 2, win0_2.index t a * S2048x648.size a ≤ (i a).val ∧ (i a).val < win0_2.index t a * S2048x648.size a + S2048x648.size a := by
  show i ∈ ((View.whole main_v130).slice (win0_2.rect t)).set ↔ _
  rw [View.set_slice_whole, Rect.mem_set_unit]
  exact Iff.rfl

/-- The 128 blocks tile the output: row `r` is in the block of point `r / 2048`. -/
private theorem cover (i : S262144x648.Idx) :
    ∃ t : Fin cfg0.N, (cfg0.win 2).flush t = true ∧ i ∈ ((cfg0.win 2).blk t).view.set := by
  have hi0 : (i 0).val < 262144 := (i 0).isLt
  have hi1 : (i 1).val < 648 := (i 1).isLt
  have ht : (i 0).val / 2048 < cfg0.N := lt_of_lt_of_eq (by omega : (i 0).val / 2048 < 128) N_0.symm
  refine ⟨⟨(i 0).val / 2048, ht⟩, flush0_2 _, ?_⟩
  rw [mem_blk]
  obtain ⟨-, -, -, -, e4, e5⟩ := idx_facts ⟨(i 0).val / 2048, ht⟩
  intro a
  match a with
  | ⟨0, _⟩ =>
    show win0_2.index ⟨(i 0).val / 2048, ht⟩ (0 : Fin 2) * 2048 ≤ (i 0).val ∧ (i 0).val < win0_2.index ⟨(i 0).val / 2048, ht⟩ (0 : Fin 2) * 2048 + 2048
    rw [e4]
    show (i 0).val / 2048 * 2048 ≤ (i 0).val ∧ (i 0).val < (i 0).val / 2048 * 2048 + 2048
    omega
  | ⟨1, _⟩ =>
    show win0_2.index ⟨(i 0).val / 2048, ht⟩ (1 : Fin 2) * 648 ≤ (i 1).val ∧ (i 1).val < win0_2.index ⟨(i 0).val / 2048, ht⟩ (1 : Fin 2) * 648 + 648
    rw [e5]
    omega

/-- THE OUTPUT ARRAY after the launch: the whole-array product. -/
theorem final (c : Dev nD) :
    (dats m 0 c).arrAt 2 cfg0.N = prod (V m c main_arg0) (V m c main_v129) := by
  exact (dats m 0 c).arrAt_eq_of_cover 2 (prod (V m c main_arg0) (V m c main_v129)) (fun t _ => flushed_eq m c t) cover

/-- The program's run re-posted: the result at the reshaped product, the arguments unchanged. -/
theorem run : θ_run defs (onTc (τ := τ) (main (F := Ideal))) ⟨m, fun _ => 0, ρ⟩ fun r => ∀ c : Dev nD,
      r.2.mem ((c.tc : Thread nD τ).loc main_v131)
          = shapeCast S262144x8x3x3x3x3 (prod (m ((c.tc : Thread nD τ).loc main_arg0)) (V m c main_v129))
              shapeCasts_S262144x648_S262144x8x3x3x3x3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨?_,
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩) (run_main m ρ)
  -- the result buffer: the one host line after the launch, a reshape of the output array
  refine ((h c).2 main_v131 (Pipeline.mem_restRefs_of main_v131 (by decide) (by decide))).trans ?_
  unfold Pipeline.afterTail₀
  show StableHlo.after hostOps1 _ (Proc.devRef .tc main_v131) = _
  after_results
  have hw : Pipeline.withArrays (cfgs 0).spec c (V0 m c) (fun w => (dats m 0 c).arrAt w (cfgs 0).N) (Proc.devRef .tc main_v130)
      = prod (V m c main_arg0) (V m c main_v129) :=
    (Pipeline.withArrays_arr spec0 launch0.win.arr_inj c _ _ 2).trans (final m c)
  rw [hw, V_main_arg0]
  rfl

end Cert.KernelIdeal.KVal

end
-- ==== Proof.KernelWDefs.lean ====
/-
  The folded weight matrix, as the kernel's host code builds it.

  `W : [200, 648]` starts as zeros. For each degree `l ∈ {0, 2, 4}` the block `A_l : [2l+1, 81]` is the transpose of
  `V_l[dmap, :] / coef[:, None]` — row `dmap j` of the weight table over the multiplicity of Cartesian entry `j` —
  and for each channel `c < 8` it is written into the window of `W` with corner `(base_l + (2l+1) c, 81 c)`
  (`base_0 = 0`, `base_2 = 32`, `base_4 = 128`): three layers of eight window writes. The result is cast to bf16,
  which on the extended reals changes nothing.
-/
import proofs.«163621_j26628797235368_1_alg».proof.Proof.Gen.KernelIdeal.Frame

set_option maxRecDepth 16384

noncomputable section

namespace Cert.KernelIdeal.KW

open Cert.KernelIdeal Cert.KernelIdeal.Gen Idealize.ShloMosaic Idealize.ShloMosaic.TcCoe Idealize.SL.Sem

variable {F : FTy → Type} [FloatOps F]

/-- The constant table of monomial numbers, one per Cartesian entry. -/
def dmTable : IVec S81 32 := fun i => lit0 (S81.rowMajor i)

/-- The gathers' start indices: the table with negative entries wrapped by 15, as a column. -/
def dmIdx : IVec S81x1 32 :=
  broadcastInDim S81x1 ![0] bcast_S81_S81x1_0
    (select (cmpi .slt dmTable (broadcastInDim S81 ![] bcast_S_S81 (constantI S_ 32 0#32)))
      (addi dmTable (broadcastInDim S81 ![] bcast_S_S81 (constantI S_ 32 15#32))) dmTable)

/-- The constant table of multiplicities, one per Cartesian entry. -/
def coefTable : FVec F S81 .f32 := fun i => FloatOps.ofBits .f32 (lit1 (S81.rowMajor i))

/-- The degree-0 block: `(V0[dmap, :] / coef[:, None])ᵀ`. -/
def A0 (V0 : FVec F S15x1 .f32) : FVec F S1x81 .f32 :=
  transpose S1x81 [1, 0]
    (Host.divf (Host.gather gather_S15x1_S81x1_S81x1_1_0_n_n_0_1_11 V0 dmIdx)
      (broadcastInDim S81x1 ![0] bcast_S81_S81x1_0 (coefTable (F := F))))
    transposes_S81x1_S1x81_1_0

/-- The degree-2 block. -/
def A2 (V2 : FVec F S15x5 .f32) : FVec F S5x81 .f32 :=
  transpose S5x81 [1, 0]
    (Host.divf (Host.gather gather_S15x5_S81x1_S81x5_1_0_n_n_0_1_15 V2 dmIdx)
      (broadcastInDim S81x5 ![0, 1] bcast_S81x1_S81x5_0_1 (broadcastInDim S81x1 ![0] bcast_S81_S81x1_0 (coefTable (F := F)))))
    transposes_S81x5_S5x81_1_0

/-- The degree-4 block. -/
def A4 (V4 : FVec F S15x9 .f32) : FVec F S9x81 .f32 :=
  transpose S9x81 [1, 0]
    (Host.divf (Host.gather gather_S15x9_S81x1_S81x9_1_0_n_n_0_1_19 V4 dmIdx)
      (broadcastInDim S81x9 ![0, 1] bcast_S81x1_S81x9_0_1 (broadcastInDim S81x1 ![0] bcast_S81_S81x1_0 (coefTable (F := F)))))
    transposes_S81x9_S9x81_1_0

/-- A window's corner `(r0, c0)` as the write's index vector. -/
def corner (r0 c0 : BitVec 32) : IVec S2 32 :=
  concatenate S2 0 [⟨S1, broadcastInDim S1 ![] bcast_S_S1 (constantI S_ 32 r0)⟩,
    ⟨S1, broadcastInDim S1 ![] bcast_S_S1 (constantI S_ 32 c0)⟩] concatenates_S1_S1_S2_d0

/-- One window write of a `1 × 81`, `5 × 81`, `9 × 81` block at corner `(r0, c0)`. -/
def put1 (X : FVec F S200x648 .f32) (r0 c0 : BitVec 32) (U : FVec F S1x81 .f32) : FVec F S200x648 .f32 :=
  Host.scatter scatter_S200x648_S2_S1x81_01_n_01_0 (fun _ b => b) X (corner r0 c0) U
def put5 (X : FVec F S200x648 .f32) (r0 c0 : BitVec 32) (U : FVec F S5x81 .f32) : FVec F S200x648 .f32 :=
  Host.scatter scatter_S200x648_S2_S5x81_01_n_01_0 (fun _ b => b) X (corner r0 c0) U
def put9 (X : FVec F S200x648 .f32) (r0 c0 : BitVec 32) (U : FVec F S9x81 .f32) : FVec F S200x648 .f32 :=
  Host.scatter scatter_S200x648_S2_S9x81_01_n_01_0 (fun _ b => b) X (corner r0 c0) U

/-- The zero matrix the writes start from. -/
def W0 : FVec F S200x648 .f32 := broadcastInDim S200x648 ![] bcast_S_S200x648 (constant S_ .f32 0x00000000#32)

/-- The eight degree-0 writes, channel by channel. -/
def layer0 (X : FVec F S200x648 .f32) (U : FVec F S1x81 .f32) : FVec F S200x648 .f32 :=
  put1 (put1 (put1 (put1 (put1 (put1 (put1 (put1 (X) 0#32 0#32 (U)) 1#32 81#32 (U)) 2#32 162#32 (U)) 3#32 243#32 (U)) 4#32 324#32 (U)) 5#32 405#32 (U)) 6#32 486#32 (U)) 7#32 567#32 (U)
/-- The eight degree-2 writes. -/
def layer2 (X : FVec F S200x648 .f32) (U : FVec F S5x81 .f32) : FVec F S200x648 .f32 :=
  put5 (put5 (put5 (put5 (put5 (put5 (put5 (put5 (X) 32#32 0#32 (U)) 37#32 81#32 (U)) 42#32 162#32 (U)) 47#32 243#32 (U)) 52#32 324#32 (U)) 57#32 405#32 (U)) 62#32 486#32 (U)) 67#32 567#32 (U)
/-- The eight degree-4 writes. -/
def layer4 (X : FVec F S200x648 .f32) (U : FVec F S9x81 .f32) : FVec F S200x648 .f32 :=
  put9 (put9 (put9 (put9 (put9 (put9 (put9 (put9 (X) 128#32 0#32 (U)) 137#32 81#32 (U)) 146#32 162#32 (U)) 155#32 243#32 (U)) 164#32 324#32 (U)) 173#32 405#32 (U)) 182#32 486#32 (U)) 191#32 567#32 (U)

/-- The folded matrix before the cast. -/
def Wf32 (V4 : FVec F S15x9 .f32) (V2 : FVec F S15x5 .f32) (V0 : FVec F S15x1 .f32) : FVec F S200x648 .f32 :=
  layer4 (layer2 (layer0 W0 (A0 V0)) (A2 V2)) (A4 V4)

/-- The launch's second operand. -/
def Wfun (V4 : FVec F S15x9 .f32) (V2 : FVec F S15x5 .f32) (V0 : FVec F S15x1 .f32) : FVec F S200x648 .bf16 :=
  truncf .bf16 (Wf32 V4 V2 V0) bitsLt_bf16_f32

end Cert.KernelIdeal.KW

end
-- ==== Proof.KernelWRun.lean ====
/-
  The host operations before the launch build the folded matrix.

  Read back in one pass, the 187 host operations before the kernel's launch leave in the launch's second
  operand exactly the term `Wfun` of the three weight tables: zeros, then the three layers of eight window writes of
  the transposed, divided, gathered weight blocks, then the cast.
-/
import proofs.«163621_j26628797235368_1_alg».proof.Proof.KernelWDefs
import Idealize.ShloMosaic.Lib.StableHlo.Run

set_option maxRecDepth 16384

noncomputable section

namespace Cert.KernelIdeal.KW

open Cert.KernelIdeal Cert.KernelIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Two one-word vectors side by side: a window's corner as the host code assembles it. -/
def pairCat (a b : IVec S1 32) : IVec S2 32 := concatenate S2 0 [⟨S1, a⟩, ⟨S1, b⟩] concatenates_S1_S1_S2_d0

/-- The host operations' own spelling of it. -/
theorem pairCat_fold :
    (fun (a b : IVec S1 32) => concatenate S2 0 [⟨S1, a⟩, ⟨S1, b⟩] concatenates_S1_S1_S2_d0) = pairCat := rfl

set_option maxHeartbeats 40000000 in
/-- The host operations before the launch leave `Wfun` of the three weight tables in the launch's second operand. -/
theorem W_eq (c : Dev nD) :
    (V m c main_v129 : FVec F S200x648 .bf16)
      = Wfun (m ((c : Thread nD τ).loc main_arg1)) (m ((c : Thread nD τ).loc main_arg2)) (m ((c : Thread nD τ).loc main_arg3)) := by
  show StableHlo.after hostOps0 (fun b => m (c, b)) (Proc.devRef .tc main_v129) = _
  simp only [after_cons, after_nil]
  simp only [pairCat_fold]
  after_results_simp
  unfold Wfun Wf32 layer4 layer2 layer0 put9 put5 put1 corner W0 A4 A2 A0 coefTable dmIdx dmTable pairCat
  rfl

end Cert.KernelIdeal.KW

end
-- ==== Proof.RefRun.lean ====
/-
  The reference program's run, read back.

  The reference's @main is a straight line of 33 host operations: five column slices of `x` reshaped to
  `[B, 8, 2l+1]`, the three products with the weight tables for `l = 4, 2, 0` summed onto a zero array, the
  monomial-to-Cartesian gather along the last axis at the constant index table (negative entries wrapped by 15,
  as jax's indexing does), the division by the constant multiplicity table, and the final reshape. Every weakly
  fair execution terminates with the result buffer at that composed term of the four arguments (`refTerm`) and the
  arguments unchanged.
-/
import proofs.«163621_j26628797235368_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The constant table of monomial numbers, one per Cartesian entry. -/
def dmTable : IVec S81 32 := fun i => lit0 (S81.rowMajor i)

/-- The gather's start indices: the table with negative entries wrapped by 15, as a column. -/
def dmIdx : IVec S81x1 32 :=
  broadcastInDim S81x1 ![0] bcast_S81_S81x1_0
    (select (cmpi .slt dmTable (broadcastInDim S81 ![] bcast_S_S81 (constantI S_ 32 0#32)))
      (addi dmTable (broadcastInDim S81 ![] bcast_S_S81 (constantI S_ 32 15#32))) dmTable)

/-- The constant table of multiplicities, one per Cartesian entry. -/
def coefTable : FVec F S81 .f32 := fun i => FloatOps.ofBits .f32 (lit1 (S81.rowMajor i))

/-- The degree-`l` columns of `x`, per channel. -/
def blk9 (x : FVec F S262144x200 .f32) : FVec F S262144x8x9 .f32 :=
  shapeCast S262144x8x9 (extractStridedSlice S262144x72 ![0, 128] x slices_S262144x200_S262144x72_0_128) shapeCasts_S262144x72_S262144x8x9
def blk5 (x : FVec F S262144x200 .f32) : FVec F S262144x8x5 .f32 :=
  shapeCast S262144x8x5 (extractStridedSlice S262144x40 ![0, 32] x slices_S262144x200_S262144x40_0_32) shapeCasts_S262144x40_S262144x8x5
def blk1 (x : FVec F S262144x200 .f32) : FVec F S262144x8x1 .f32 :=
  shapeCast S262144x8x1 (extractStridedSlice S262144x8 ![0, 0] x slices_S262144x200_S262144x8_0_0) shapeCasts_S262144x8_S262144x8x1

/-- The monomial coefficients: zero plus the three products, in the program's order. -/
def monomials (x : FVec F S262144x200 .f32) (V4 : FVec F S15x9 .f32) (V2 : FVec F S15x5 .f32) (V0 : FVec F S15x1 .f32) :
    FVec F S262144x8x15 .f32 :=
  addf (addf (addf (broadcastInDim S262144x8x15 ![] bcast_S_S262144x8x15 (constant S_ .f32 0x00000000#32))
        (Host.dotGeneral dot_S262144x8x9_S15x9_S262144x8x15_2_1_01_0_n_n none (blk9 x) V4))
      (Host.dotGeneral dot_S262144x8x5_S15x5_S262144x8x15_2_1_01_0_n_n none (blk5 x) V2))
    (Host.dotGeneral dot_S262144x8x1_S15x1_S262144x8x15_2_1_01_0_n_n none (blk1 x) V0)

/-- The Cartesian entries before the last reshape: gathered monomials over multiplicities. -/
def refFlat (x : FVec F S262144x200 .f32) (V4 : FVec F S15x9 .f32) (V2 : FVec F S15x5 .f32) (V0 : FVec F S15x1 .f32) :
    FVec F S262144x8x81 .f32 :=
  Host.divf (Host.gather gather_S262144x8x15_S81x1_S262144x8x81_01_2_n_n_2_1_26214481 (monomials x V4 V2 V0) dmIdx)
    (broadcastInDim S262144x8x81 ![0, 1, 2] bcast_S1x1x81_S262144x8x81_0_1_2
      (broadcastInDim S1x1x81 ![2] bcast_S81_S1x1x81_2 (coefTable (F := F))))

/-- The reference's result as one term of its four arguments. -/
def refTerm (x : FVec F S262144x200 .f32) (V4 : FVec F S15x9 .f32) (V2 : FVec F S15x5 .f32) (V0 : FVec F S15x1 .f32) :
    FVec F S262144x8x3x3x3x3 .f32 :=
  shapeCast S262144x8x3x3x3x3 (refFlat x V4 V2 V0) shapeCasts_S262144x8x81_S262144x8x3x3x3x3

/-- @main's 33 operations, in order. -/
abbrev ops : List (HloOp τ sig (Elt F)) :=
  [ StableHlo.nullary main_c (fun i => lit0 (S81.rowMajor i)),
    StableHlo.nullary main_cst (fun i => FloatOps.ofBits .f32 (lit1 (S81.rowMajor i))),
    StableHlo.unary main_arg0 main_v0 ((extractStridedSlice S262144x8 ![0, 0] · slices_S262144x200_S262144x8_0_0) : (⟨S262144x200, .f32⟩ : BufTy).Contents (Elt F) → (⟨S262144x8, .f32⟩ : BufTy).Contents (Elt F)),
    StableHlo.reshape main_v0 main_v1 rfl shapeCasts_S262144x8_S262144x8x1,
    StableHlo.unary main_arg0 main_v2 ((extractStridedSlice S262144x24 ![0, 8] · slices_S262144x200_S262144x24_0_8) : (⟨S262144x200, .f32⟩ : BufTy).Contents (Elt F) → (⟨S262144x24, .f32⟩ : BufTy).Contents (Elt F)),
    StableHlo.reshape main_v2 main_v3 rfl shapeCasts_S262144x24_S262144x8x3,
    StableHlo.unary main_arg0 main_v4 ((extractStridedSlice S262144x40 ![0, 32] · slices_S262144x200_S262144x40_0_32) : (⟨S262144x200, .f32⟩ : BufTy).Contents (Elt F) → (⟨S262144x40, .f32⟩ : BufTy).Contents (Elt F)),
    StableHlo.reshape main_v4 main_v5 rfl shapeCasts_S262144x40_S262144x8x5,
    StableHlo.unary main_arg0 main_v6 ((extractStridedSlice S262144x56 ![0, 72] · slices_S262144x200_S262144x56_0_72) : (⟨S262144x200, .f32⟩ : BufTy).Contents (Elt F) → (⟨S262144x56, .f32⟩ : BufTy).Contents (Elt F)),
    StableHlo.reshape main_v6 main_v7 rfl shapeCasts_S262144x56_S262144x8x7,
    StableHlo.unary main_arg0 main_v8 ((extractStridedSlice S262144x72 ![0, 128] · slices_S262144x200_S262144x72_0_128) : (⟨S262144x200, .f32⟩ : BufTy).Contents (Elt F) → (⟨S262144x72, .f32⟩ : BufTy).Contents (Elt F)),
    StableHlo.reshape main_v8 main_v9 rfl shapeCasts_S262144x72_S262144x8x9,
    StableHlo.binary main_v9 main_arg1 main_v10 ((fun l r => Host.dotGeneral dot_S262144x8x9_S15x9_S262144x8x15_2_1_01_0_n_n none l r) : (⟨S262144x8x9, .f32⟩ : BufTy).Contents (Elt F) → (⟨S15x9, .f32⟩ : BufTy).Contents (Elt F) → (⟨S262144x8x15, .f32⟩ : BufTy).Contents (Elt F)),
    StableHlo.nullary main_cst_0 (constant S_ .f32 0x00000000#32),
    StableHlo.unary main_cst_0 main_v11 (broadcastInDim S262144x8x15 ![] bcast_S_S262144x8x15 : (⟨S_, .f32⟩ : BufTy).Contents (Elt F) → (⟨S262144x8x15, .f32⟩ : BufTy).Contents (Elt F)),
    StableHlo.binary main_v11 main_v10 main_v12 (addf : (⟨S262144x8x15, .f32⟩ : BufTy).Contents (Elt F) → (⟨S262144x8x15, .f32⟩ : BufTy).Contents (Elt F) → (⟨S262144x8x15, .f32⟩ : BufTy).Contents (Elt F)),
    StableHlo.binary main_v5 main_arg2 main_v13 ((fun l r => Host.dotGeneral dot_S262144x8x5_S15x5_S262144x8x15_2_1_01_0_n_n none l r) : (⟨S262144x8x5, .f32⟩ : BufTy).Contents (Elt F) → (⟨S15x5, .f32⟩ : BufTy).Contents (Elt F) → (⟨S262144x8x15, .f32⟩ : BufTy).Contents (Elt F)),
    StableHlo.binary main_v12 main_v13 main_v14 (addf : (⟨S262144x8x15, .f32⟩ : BufTy).Contents (Elt F) → (⟨S262144x8x15, .f32⟩ : BufTy).Contents (Elt F) → (⟨S262144x8x15, .f32⟩ : BufTy).Contents (Elt F)),
    StableHlo.binary main_v1 main_arg3 main_v15 ((fun l r => Host.dotGeneral dot_S262144x8x1_S15x1_S262144x8x15_2_1_01_0_n_n none l r) : (⟨S262144x8x1, .f32⟩ : BufTy).Contents (Elt F) → (⟨S15x1, .f32⟩ : BufTy).Contents (Elt F) → (⟨S262144x8x15, .f32⟩ : BufTy).Contents (Elt F)),
    StableHlo.binary main_v14 main_v15 main_v16 (addf : (⟨S262144x8x15, .f32⟩ : BufTy).Contents (Elt F) → (⟨S262144x8x15, .f32⟩ : BufTy).Contents (Elt F) → (⟨S262144x8x15, .f32⟩ : BufTy).Contents (Elt F)),
    StableHlo.nullary main_c_1 (constantI S_ 32 0#32),
    StableHlo.unary main_c_1 main_v17 (broadcastInDim S81 ![] bcast_S_S81 : (⟨S_, .i32⟩ : BufTy).Contents (Elt F) → (⟨S81, .i32⟩ : BufTy).Contents (Elt F)),
    StableHlo.binary main_c main_v17 main_v18 (cmpi .slt : (⟨S81, .i32⟩ : BufTy).Contents (Elt F) → (⟨S81, .i32⟩ : BufTy).Contents (Elt F) → (⟨S81, .i1⟩ : BufTy).Contents (Elt F)),
    StableHlo.nullary main_c_2 (constantI S_ 32 15#32),
    StableHlo.unary main_c_2 main_v19 (broadcastInDim S81 ![] bcast_S_S81 : (⟨S_, .i32⟩ : BufTy).Contents (Elt F) → (⟨S81, .i32⟩ : BufTy).Contents (Elt F)),
    StableHlo.binary main_c main_v19 main_v20 (addi : (⟨S81, .i32⟩ : BufTy).Contents (Elt F) → (⟨S81, .i32⟩ : BufTy).Contents (Elt F) → (⟨S81, .i32⟩ : BufTy).Contents (Elt F)),
    StableHlo.ternary main_v18 main_v20 main_c main_v21 (select : (⟨S81, .i1⟩ : BufTy).Contents (Elt F) → (⟨S81, .i32⟩ : BufTy).Contents (Elt F) → (⟨S81, .i32⟩ : BufTy).Contents (Elt F) → (⟨S81, .i32⟩ : BufTy).Contents (Elt F)),
    StableHlo.unary main_v21 main_v22 (broadcastInDim S81x1 ![0] bcast_S81_S81x1_0 : (⟨S81, .i32⟩ : BufTy).Contents (Elt F) → (⟨S81x1, .i32⟩ : BufTy).Contents (Elt F)),
    StableHlo.binary main_v16 main_v22 main_v23 ((fun x i => Host.gather gather_S262144x8x15_S81x1_S262144x8x81_01_2_n_n_2_1_26214481 x i) : (⟨S262144x8x15, .f32⟩ : BufTy).Contents (Elt F) → (⟨S81x1, .i32⟩ : BufTy).Contents (Elt F) → (⟨S262144x8x81, .f32⟩ : BufTy).Contents (Elt F)),
    StableHlo.unary main_cst main_v24 (broadcastInDim S1x1x81 ![2] bcast_S81_S1x1x81_2 : (⟨S81, .f32⟩ : BufTy).Contents (Elt F) → (⟨S1x1x81, .f32⟩ : BufTy).Contents (Elt F)),
    StableHlo.unary main_v24 main_v25 (broadcastInDim S262144x8x81 ![0, 1, 2] bcast_S1x1x81_S262144x8x81_0_1_2 : (⟨S1x1x81, .f32⟩ : BufTy).Contents (Elt F) → (⟨S262144x8x81, .f32⟩ : BufTy).Contents (Elt F)),
    StableHlo.binary main_v23 main_v25 main_v26 (Host.divf : (⟨S262144x8x81, .f32⟩ : BufTy).Contents (Elt F) → (⟨S262144x8x81, .f32⟩ : BufTy).Contents (Elt F) → (⟨S262144x8x81, .f32⟩ : BufTy).Contents (Elt F)),
    StableHlo.reshape main_v26 main_v27 rfl shapeCasts_S262144x8x81_S262144x8x3x3x3x3 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxHeartbeats 4000000 in
theorem ops_sub : (ops : List (HloOp τ sig (Elt F))).Forall fun op => op.bufs ⊆ tcRefs τ sig :=
  ⟨nullary_bufs_sub .., nullary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., nullary_bufs_sub .., unary_bufs_sub .., binary_bufs_sub .., binary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., reshape_bufs_sub ..⟩

set_option maxHeartbeats 8000000 in
/-- On every device, from any memory with zero counters: every weakly fair execution of the reference's @main
    terminates with its result at `refTerm` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v27).trans (by
        unfold refTerm refFlat monomials blk9 blk5 blk1 dmIdx dmTable coefTable
        after_results_simp
        rfl),
      (h c main_arg0).trans (by after_results),
      (h c main_arg1).trans (by after_results),
      (h c main_arg2).trans (by after_results),
      (h c main_arg3).trans (by after_results)⟩)
    (run_seq scopedRefs_eq scopedSems_eq defs main (fun _ => ops) main_eq (fun _ => ops_sub) m ρ)

end Cert.ReferenceIdeal.HandRun

end
-- ==== Proof.LibGatherRows.lean ====
/-
  Two gathers along one axis, read at an entry.

  `V[idx, :]` of a matrix `V : [N, M]` at a column `idx : [Rr, 1]` of row numbers is `stablehlo.gather` with
  offset axis 1, collapsed axis 0, start-index map [0], index-vector axis 1 and slices `[1, M]`: entry `(r, q)` of the
  result is `V` at row `idx[r, 0]` — read signed and clamped into `[0, N - 1]` — and column `q`.
  `T[..., idx]` of `T : [B, Cc, N]` is the same along the last axis: offset axes 0 and 1, collapsed axis 2,
  start-index map [2], slices `[B, Cc, 1]`; entry `(b, c, r)` is `T` at `(b, c, idx[r, 0] clamped)`.

  The dimension record is a variable; its printed fields enter as hypotheses (each is `rfl` for a printed record).
-/
import Idealize.ShloMosaic.PureOps.ShapeOps
import Idealize.ShloMosaic.Lib.ValueIdx

noncomputable section

namespace Cert.GatherRows

open Idealize.ShloMosaic Idealize.ShloMosaic.ValueIdx

variable {α : Type} {w : ℕ}

/-- The row number the gather reads for result row `r`: the start index `idx[r, 0]`, signed, clamped into `[0, N - 1]`. -/
def rowOf {N Rr : ℕ} (hN : 0 < N) (idx : IVec (⟨2, ![Rr, 1]⟩ : Shape) w) (r : Fin Rr) : Fin N :=
  ⟨min (idx (ix2 r 0)).toInt.toNat (N - 1), by omega⟩

/-- Membership facts about axis numbers, decided once on the closed types `Fin 2` and `Fin 3`; an axis of a shape of
    literal rank is such a number by unfolding. -/
private theorem fin2_zero_mem : (0 : Fin 2) ∈ ([0] : List (Fin 2)) := by decide
private theorem fin2_one_not_mem : (1 : Fin 2) ∉ ([0] : List (Fin 2)) := by decide
private theorem fin3_two_mem : (2 : Fin 3) ∈ ([2] : List (Fin 3)) := by decide
private theorem fin3_zero_not_mem : (0 : Fin 3) ∉ ([2] : List (Fin 3)) := by decide
private theorem fin3_one_not_mem : (1 : Fin 3) ∉ ([2] : List (Fin 3)) := by decide

/-- ROWS OF A MATRIX: `V[idx, :]` at `(r, q)` is `V (rowOf idx r, q)`. -/
theorem gather_rows_apply {N M Rr : ℕ} (hN : 0 < N)
    (d : GatherDims (⟨2, ![N, M]⟩ : Shape) (⟨2, ![Rr, 1]⟩ : Shape) (⟨2, ![Rr, M]⟩ : Shape))
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, M])
    (x : (⟨2, ![N, M]⟩ : Shape).Idx → α) (idx : IVec (⟨2, ![Rr, 1]⟩ : Shape) w) (r : Fin Rr) (q : Fin M) :
    Host.gather d x idx (ix2 r q) = x (ix2 (rowOf hN idx r) q) := by
  -- the record's fields are the printed lists: open the record and substitute them
  obtain ⟨od, cs, ob, sb, sm, iv, ss, wf⟩ := d
  dsimp only at hod hcs hob hsb hsm hiv hss
  subst hod hcs hob hsb hsm hiv hss
  -- the two operand indices agree coordinate by coordinate
  unfold Host.gather
  congr 1
  funext a
  refine Fin.ext ?_
  match a with
  | ⟨0, h0⟩ =>
    -- axis 0 is collapsed and indexed: no batching and no offset coordinate, the start is `idx[r, 0]` clamped to `N - 1`
    show GatherDims.start _ (ix2 r q) idx ⟨0, h0⟩ + GatherDims.batchCoord _ (ix2 r q) ⟨0, h0⟩
      + GatherDims.offCoord _ (ix2 r q) ⟨0, h0⟩ = _
    rw [GatherDims.batchCoord_eq_zero _ _ _ List.not_mem_nil,
      GatherDims.offCoord_eq_zero _ _ _ (fun h => ((GatherDims.mem_sKept _ _).mp h).1 fin2_zero_mem)]
    simp only [Nat.add_zero]
    unfold GatherDims.start
    rw [dif_pos (show (⟨0, h0⟩ : Fin 2) ∈ ([0] : List (Fin 2)) from fin2_zero_mem)]
    have hsi : (GatherDims.mk (s := ⟨2, ![N, M]⟩) (si := ⟨2, ![Rr, 1]⟩) (t := ⟨2, ![Rr, M]⟩)
          [1] [0] [] [] [0] 1 ![1, M] wf).siIdx (ix2 r q)
        ⟨List.idxOf (⟨0, h0⟩ : Fin 2) ([0] : List (Fin 2)), List.idxOf_lt_length_iff.2 fin2_zero_mem⟩ = ix2 r 0 := by
      funext b; refine Fin.ext ?_
      match b with
      | ⟨0, _⟩ => rfl
      | ⟨1, _⟩ => rfl
    rw [hsi]
    rfl
  | ⟨1, h1⟩ =>
    -- axis 1 is the offset axis: the start is 0 and the offset coordinate is the result's on its axis 1, `q`
    show GatherDims.start _ (ix2 r q) idx ⟨1, h1⟩ + GatherDims.batchCoord _ (ix2 r q) ⟨1, h1⟩
      + GatherDims.offCoord _ (ix2 r q) ⟨1, h1⟩ = _
    rw [GatherDims.batchCoord_eq_zero _ _ _ List.not_mem_nil]
    unfold GatherDims.start
    rw [dif_neg (show ¬ (⟨1, h1⟩ : Fin 2) ∈ ([0] : List (Fin 2)) from fin2_one_not_mem)]
    unfold GatherDims.offCoord
    rw [dif_pos ((GatherDims.mem_sKept _ _).mpr ⟨fin2_one_not_mem, List.not_mem_nil⟩)]
    simp only [Nat.zero_add, Nat.add_zero]
    rfl

/-- THE LAST AXIS OF A RANK-3 ARRAY: `T[..., idx]` at `(b, c, r)` is `T (b, c, rowOf idx r)`. -/
theorem gather_last_apply {B Cc N Rr : ℕ} (hN : 0 < N)
    (d : GatherDims (⟨3, ![B, Cc, N]⟩ : Shape) (⟨2, ![Rr, 1]⟩ : Shape) (⟨3, ![B, Cc, Rr]⟩ : Shape))
    (hod : d.offsetDims = [0, 1]) (hcs : d.collapsedSliceDims = [2]) (hob : d.operandBatchingDims = [])
    (hsb : d.startIndicesBatchingDims = []) (hsm : d.startIndexMap = [2]) (hiv : d.indexVectorDim = 1)
    (hss : d.sliceSizes = ![B, Cc, 1])
    (x : (⟨3, ![B, Cc, N]⟩ : Shape).Idx → α) (idx : IVec (⟨2, ![Rr, 1]⟩ : Shape) w) (b : Fin B) (c : Fin Cc) (r : Fin Rr) :
    Host.gather d x idx (ix3 b c r) = x (ix3 b c (rowOf hN idx r)) := by
  obtain ⟨od, cs, ob, sb, sm, iv, ss, wf⟩ := d
  dsimp only at hod hcs hob hsb hsm hiv hss
  subst hod hcs hob hsb hsm hiv hss
  unfold Host.gather
  congr 1
  funext a
  refine Fin.ext ?_
  match a with
  | ⟨0, h0⟩ =>
    -- axis 0 is an offset axis: start 0, offset coordinate the result's on its axis 0, `b`
    show GatherDims.start _ (ix3 b c r) idx ⟨0, h0⟩ + GatherDims.batchCoord _ (ix3 b c r) ⟨0, h0⟩
      + GatherDims.offCoord _ (ix3 b c r) ⟨0, h0⟩ = _
    rw [GatherDims.batchCoord_eq_zero _ _ _ List.not_mem_nil]
    unfold GatherDims.start
    rw [dif_neg (show ¬ (⟨0, h0⟩ : Fin 3) ∈ ([2] : List (Fin 3)) from fin3_zero_not_mem)]
    unfold GatherDims.offCoord
    rw [dif_pos ((GatherDims.mem_sKept _ _).mpr ⟨fin3_zero_not_mem, List.not_mem_nil⟩)]
    simp only [Nat.zero_add, Nat.add_zero]
    rfl
  | ⟨1, h1⟩ =>
    -- axis 1 is an offset axis: start 0, offset coordinate the result's on its axis 1, `c`
    show GatherDims.start _ (ix3 b c r) idx ⟨1, h1⟩ + GatherDims.batchCoord _ (ix3 b c r) ⟨1, h1⟩
      + GatherDims.offCoord _ (ix3 b c r) ⟨1, h1⟩ = _
    rw [GatherDims.batchCoord_eq_zero _ _ _ List.not_mem_nil]
    unfold GatherDims.start
    rw [dif_neg (show ¬ (⟨1, h1⟩ : Fin 3) ∈ ([2] : List (Fin 3)) from fin3_one_not_mem)]
    unfold GatherDims.offCoord
    rw [dif_pos ((GatherDims.mem_sKept _ _).mpr ⟨fin3_one_not_mem, List.not_mem_nil⟩)]
    simp only [Nat.zero_add, Nat.add_zero]
    rfl
  | ⟨2, h2⟩ =>
    -- axis 2 is collapsed and indexed: the start is `idx[r, 0]` clamped to `N - 1`, read at the result's batch coordinate `r`
    show GatherDims.start _ (ix3 b c r) idx ⟨2, h2⟩ + GatherDims.batchCoord _ (ix3 b c r) ⟨2, h2⟩
      + GatherDims.offCoord _ (ix3 b c r) ⟨2, h2⟩ = _
    rw [GatherDims.batchCoord_eq_zero _ _ _ List.not_mem_nil,
      GatherDims.offCoord_eq_zero _ _ _ (fun h => ((GatherDims.mem_sKept _ _).mp h).1 fin3_two_mem)]
    simp only [Nat.add_zero]
    unfold GatherDims.start
    rw [dif_pos (show (⟨2, h2⟩ : Fin 3) ∈ ([2] : List (Fin 3)) from fin3_two_mem)]
    have hsi : (GatherDims.mk (s := ⟨3, ![B, Cc, N]⟩) (si := ⟨2, ![Rr, 1]⟩) (t := ⟨3, ![B, Cc, Rr]⟩)
          [0, 1] [2] [] [] [2] 1 ![B, Cc, 1] wf).siIdx (ix3 b c r)
        ⟨List.idxOf (⟨2, h2⟩ : Fin 3) ([2] : List (Fin 3)), List.idxOf_lt_length_iff.2 fin3_two_mem⟩ = ix2 r 0 := by
      funext k; refine Fin.ext ?_
      match k with
      | ⟨0, _⟩ => rfl
      | ⟨1, _⟩ => rfl
    rw [hsi]
    rfl

end Cert.GatherRows

end
-- ==== Proof.KernelWBlocks.lean ====
/-
  The three transposed weight blocks, entry by entry.

  `A_l = (V_l[dmap, :] / coef[:, None])ᵀ`: entry `(m, j)` is row `dmRow j` of the weight table `V_l` at column `m`, over
  the multiplicity `coef j` of Cartesian entry `j`. The gather clamps its start index into `[0, 14]`; the two
  broadcasts of the multiplicity table read it at `j`; the transpose swaps the two coordinates.
-/
import proofs.«163621_j26628797235368_1_alg».proof.Proof.KernelWDefs
import proofs.«163621_j26628797235368_1_alg».proof.Proof.LibGatherRows
import Idealize.ShloMosaic.Lib.Pipeline.Value
import Idealize.ShloMosaic.Lib.ValueLayout
import Idealize.ShloMosaic.Lib.ValueIdx
import Idealize.ShloMosaic.PureOps.Ideal
import Idealize.ShloMosaic.PureOps.Ideal.Laws

set_option maxRecDepth 16384

noncomputable section

namespace Cert.KernelIdeal.KW

open Cert.KernelIdeal Cert.KernelIdeal.Gen Idealize.ShloMosaic Idealize.ShloMosaic.ValueIdx

/-- The weight-table row the gathers read for Cartesian entry `j`: the index table's entry, wrapped and clamped into `[0, 14]`. -/
def dmRow (j : Fin 81) : Fin 15 := Cert.GatherRows.rowOf (N := 15) (by decide) dmIdx j

/-- The multiplicity of Cartesian entry `j`. -/
def coef (j : Fin 81) : EReal := Ideal.ofBits .f32 (lit1 j)

/-- Entry `(mm, j)` of each transposed block: the gathered weight over the multiplicity. -/
theorem A0_apply (V0 : FVec Ideal S15x1 .f32) (mm : Fin 1) (j : Fin 81) :
    A0 (F := Ideal) V0 (ix2 mm j) = Ideal.div (V0 (ix2 (dmRow j) mm)) (coef j) := by
  unfold A0
  -- the transpose at (mm, j) reads its operand at (j, mm); the quotient there is the quotient of the entries
  refine (transpose_ix2_apply _ _ mm j).trans ?_
  refine congrArg₂ Ideal.div ?_ ?_
  · -- the gathered row of the weight table
    exact Cert.GatherRows.gather_rows_apply (N := 15) (by decide) _ rfl rfl rfl rfl rfl rfl rfl V0 dmIdx j mm
  · -- the multiplicity table, broadcast along the columns, read at row j
    refine (broadcastInDim_apply _ _ _ (ix2 j mm) (ix1 j) ?_).trans ?_
    · intro a
      match a with
      | ⟨0, _⟩ => rfl
    show Ideal.ofBits .f32 (lit1 (S81.rowMajor (ix1 j))) = Ideal.ofBits .f32 (lit1 j)
    rw [show S81.rowMajor (ix1 j) = j from Fin.ext (Shape.rowMajor_val_one _)]
theorem A2_apply (V2 : FVec Ideal S15x5 .f32) (mm : Fin 5) (j : Fin 81) :
    A2 (F := Ideal) V2 (ix2 mm j) = Ideal.div (V2 (ix2 (dmRow j) mm)) (coef j) := by
  unfold A2
  -- the transpose at (mm, j) reads its operand at (j, mm); the quotient there is the quotient of the entries
  refine (transpose_ix2_apply _ _ mm j).trans ?_
  refine congrArg₂ Ideal.div ?_ ?_
  · -- the gathered row of the weight table
    exact Cert.GatherRows.gather_rows_apply (N := 15) (by decide) _ rfl rfl rfl rfl rfl rfl rfl V2 dmIdx j mm
  · -- the multiplicity table, broadcast along the columns, read at row j
    refine (broadcastInDim_apply _ _ _ (ix2 j mm) (ix2 j 0) ?_).trans ?_
    · intro a
      match a with
      | ⟨0, _⟩ => rfl
      | ⟨1, _⟩ => rfl
    refine (broadcastInDim_apply _ _ _ (ix2 j 0) (ix1 j) ?_).trans ?_
    · intro a
      match a with
      | ⟨0, _⟩ => rfl
    show Ideal.ofBits .f32 (lit1 (S81.rowMajor (ix1 j))) = Ideal.ofBits .f32 (lit1 j)
    rw [show S81.rowMajor (ix1 j) = j from Fin.ext (Shape.rowMajor_val_one _)]
theorem A4_apply (V4 : FVec Ideal S15x9 .f32) (mm : Fin 9) (j : Fin 81) :
    A4 (F := Ideal) V4 (ix2 mm j) = Ideal.div (V4 (ix2 (dmRow j) mm)) (coef j) := by
  unfold A4
  -- the transpose at (mm, j) reads its operand at (j, mm); the quotient there is the quotient of the entries
  refine (transpose_ix2_apply _ _ mm j).trans ?_
  refine congrArg₂ Ideal.div ?_ ?_
  · -- the gathered row of the weight table
    exact Cert.GatherRows.gather_rows_apply (N := 15) (by decide) _ rfl rfl rfl rfl rfl rfl rfl V4 dmIdx j mm
  · -- the multiplicity table, broadcast along the columns, read at row j
    refine (broadcastInDim_apply _ _ _ (ix2 j mm) (ix2 j 0) ?_).trans ?_
    · intro a
      match a with
      | ⟨0, _⟩ => rfl
      | ⟨1, _⟩ => rfl
    refine (broadcastInDim_apply _ _ _ (ix2 j 0) (ix1 j) ?_).trans ?_
    · intro a
      match a with
      | ⟨0, _⟩ => rfl
    show Ideal.ofBits .f32 (lit1 (S81.rowMajor (ix1 j))) = Ideal.ofBits .f32 (lit1 j)
    rw [show S81.rowMajor (ix1 j) = j from Fin.ext (Shape.rowMajor_val_one _)]

end Cert.KernelIdeal.KW

end
-- ==== Proof.LibScatterSet.lean ====
/-
  A window written into a matrix, read at an entry.

  `stablehlo.scatter` with ONE scatter index (a 2-vector `(r0, c0)`), both operand axes window axes, no inserted
  axis, and a body that returns the update — what `W.at[r0:r0+H, c0:c0+Wd].set(U)` lowers to — replaces the
  `H × Wd` rectangle of the operand whose corner is `(r0, c0)` by the update and leaves every other entry alone,
  when the rectangle lies inside the operand.

  The dimension record is a variable; its printed fields enter as hypotheses (each is `rfl` for a printed record).
-/
import Idealize.ShloMosaic.PureOps.ShapeOps
import Idealize.ShloMosaic.Lib.ValueIdx

noncomputable section

namespace Cert.ScatterSet

open Idealize.ShloMosaic Idealize.ShloMosaic.ValueIdx

variable {R C H Wd : ℕ} {α : Type}

/-- A left fold of "write `v n` at `g n`, when `g n` is an index" leaves an entry that no `g n` names as it was. -/
private theorem foldl_untouched {ι β N : Type} (g : N → Option ι) (step : (ι → β) → N → (ι → β)) (i' : ι)
    (hmiss : ∀ r n, g n ≠ some i' → step r n i' = r i') :
    ∀ (L : List N) (x : ι → β), (∀ n ∈ L, g n ≠ some i') → L.foldl step x i' = x i' := by
  intro L
  induction L with
  | nil => intro x _; rfl
  | cons a L ih =>
    intro x h
    rw [List.foldl_cons, ih _ (fun n hn => h n (List.mem_cons_of_mem _ hn)), hmiss _ _ (h a (by simp))]

/-- The same fold holds `v n0` at an entry that `g n0`, and no other `g n` of the list, names. -/
private theorem foldl_hit_once {ι β N : Type} (g : N → Option ι) (v : N → β) (step : (ι → β) → N → (ι → β)) (i' : ι)
    (hhit : ∀ r n, g n = some i' → step r n i' = v n)
    (hmiss : ∀ r n, g n ≠ some i' → step r n i' = r i') (n0 : N) (hn0 : g n0 = some i')
    (x : ι → β) :
    ∀ (L : List N), n0 ∈ L → (∀ n ∈ L, g n = some i' → n = n0) → L.foldl step x i' = v n0 := by
  intro L
  induction L using List.reverseRecOn with
  | nil => intro h; cases h
  | append_singleton L a ih =>
    intro hmem huniq
    rw [List.foldl_append, List.foldl_cons, List.foldl_nil]
    by_cases ha : g a = some i'
    · rw [hhit _ _ ha, huniq a (by simp) ha]
    · rw [hmiss _ _ ha]
      refine ih ?_ (fun n hn => huniq n (by simp [hn]))
      rcases List.mem_append.1 hmem with h | h
      · exact h
      · have : n0 = a := by simpa using h
        exact absurd (this ▸ hn0) ha

/-- Every update index lands inside the operand, at the corner plus its own coordinates. -/
private theorem resultIdx_eq
    (d : ScatterDims (⟨2, ![R, C]⟩ : Shape) (⟨1, ![2]⟩ : Shape) (⟨2, ![H, Wd]⟩ : Shape))
    (huw : d.updateWindowDims = [0, 1]) (hiw : d.insertedWindowDims = [])
    (hsd : d.scatterDimsToOperandDims = [0, 1]) (hiv : d.indexVectorDim = 0)
    (idx : IVec (⟨1, ![2]⟩ : Shape) 32)
    (r0 c0 : ℕ) (hr0 : (idx (ix1 0)).toInt = (r0 : ℤ)) (hc0 : (idx (ix1 1)).toInt = (c0 : ℤ))
    (hfitR : r0 + H ≤ R) (hfitC : c0 + Wd ≤ C) (j : (⟨2, ![H, Wd]⟩ : Shape).Idx) :
    d.resultIdx? j idx = some (ix2 ⟨r0 + (j 0).val, by have := idx2_lt0 j; omega⟩ ⟨c0 + (j 1).val, by have := idx2_lt1 j; omega⟩) := by
  obtain ⟨uw, iw, sd, iv, wf⟩ := d
  simp only at huw hiw hsd hiv
  subst huw hiw hsd hiv
  have hs0 : ScatterDims.start ⟨[0, 1], [], [0, 1], 0, wf⟩ j idx 0 = r0 := by
    rw [← hr0]
    unfold ScatterDims.start
    rw [dif_pos (by simp)]
    congr 2
    funext b
    match b with
    | ⟨0, _⟩ => rfl
  have hs1 : ScatterDims.start ⟨[0, 1], [], [0, 1], 0, wf⟩ j idx 1 = c0 := by
    rw [← hc0]
    unfold ScatterDims.start
    rw [dif_pos (by simp)]
    congr 2
    funext b
    match b with
    | ⟨0, _⟩ => rfl
  have hw0 : ScatterDims.window ⟨[0, 1], [], [0, 1], 0, wf⟩ j 0 = (j 0).val := by
    rfl
  have hw1 : ScatterDims.window ⟨[0, 1], [], [0, 1], 0, wf⟩ j 1 = (j 1).val := by
    rfl
  have hj0 := idx2_lt0 j
  have hj1 := idx2_lt1 j
  have hall : ∀ a, 0 ≤ ScatterDims.start ⟨[0, 1], [], [0, 1], 0, wf⟩ j idx a + ScatterDims.window ⟨[0, 1], [], [0, 1], 0, wf⟩ j a ∧
      ScatterDims.start ⟨[0, 1], [], [0, 1], 0, wf⟩ j idx a + ScatterDims.window ⟨[0, 1], [], [0, 1], 0, wf⟩ j a < (⟨2, ![R, C]⟩ : Shape).size a := by
    intro a
    match a with
    | ⟨0, _⟩ =>
      show 0 ≤ ScatterDims.start ⟨[0, 1], [], [0, 1], 0, wf⟩ j idx 0 + ScatterDims.window ⟨[0, 1], [], [0, 1], 0, wf⟩ j 0 ∧
        ScatterDims.start ⟨[0, 1], [], [0, 1], 0, wf⟩ j idx 0 + ScatterDims.window ⟨[0, 1], [], [0, 1], 0, wf⟩ j 0 < (R : ℤ)
      rw [hs0, hw0]; omega
    | ⟨1, _⟩ =>
      show 0 ≤ ScatterDims.start ⟨[0, 1], [], [0, 1], 0, wf⟩ j idx 1 + ScatterDims.window ⟨[0, 1], [], [0, 1], 0, wf⟩ j 1 ∧
        ScatterDims.start ⟨[0, 1], [], [0, 1], 0, wf⟩ j idx 1 + ScatterDims.window ⟨[0, 1], [], [0, 1], 0, wf⟩ j 1 < (C : ℤ)
      rw [hs1, hw1]; omega
  unfold ScatterDims.resultIdx?
  rw [dif_pos hall]
  congr 1
  funext a
  refine Fin.ext ?_
  match a with
  | ⟨0, _⟩ =>
    show (ScatterDims.start ⟨[0, 1], [], [0, 1], 0, wf⟩ j idx 0 + ScatterDims.window ⟨[0, 1], [], [0, 1], 0, wf⟩ j 0).toNat = r0 + (j 0).val
    rw [hs0, hw0]; omega
  | ⟨1, _⟩ =>
    show (ScatterDims.start ⟨[0, 1], [], [0, 1], 0, wf⟩ j idx 1 + ScatterDims.window ⟨[0, 1], [], [0, 1], 0, wf⟩ j 1).toNat = c0 + (j 1).val
    rw [hs1, hw1]; omega

/-- THE WINDOW WRITE READ AT `(k, n)`: the update at `(k - r0, n - c0)` inside the rectangle, the operand outside. -/
theorem scatter_set_apply
    (d : ScatterDims (⟨2, ![R, C]⟩ : Shape) (⟨1, ![2]⟩ : Shape) (⟨2, ![H, Wd]⟩ : Shape))
    (huw : d.updateWindowDims = [0, 1]) (hiw : d.insertedWindowDims = [])
    (hsd : d.scatterDimsToOperandDims = [0, 1]) (hiv : d.indexVectorDim = 0)
    (x : (⟨2, ![R, C]⟩ : Shape).Idx → α) (idx : IVec (⟨1, ![2]⟩ : Shape) 32) (upd : (⟨2, ![H, Wd]⟩ : Shape).Idx → α)
    (r0 c0 : ℕ) (hr0 : (idx (ix1 0)).toInt = (r0 : ℤ)) (hc0 : (idx (ix1 1)).toInt = (c0 : ℤ))
    (hfitR : r0 + H ≤ R) (hfitC : c0 + Wd ≤ C) (k : Fin R) (n : Fin C) :
    Host.scatter d (fun _ b => b) x idx upd (ix2 k n) =
      if h : (r0 ≤ k.val ∧ k.val < r0 + H) ∧ (c0 ≤ n.val ∧ n.val < c0 + Wd) then
        upd (ix2 ⟨k.val - r0, by omega⟩ ⟨n.val - c0, by omega⟩)
      else x (ix2 k n) := by
  have hres := fun j => resultIdx_eq d huw hiw hsd hiv idx r0 c0 hr0 hc0 hfitR hfitC j
  -- what `resultIdx? j = some (k, n)` says of `j`'s coordinates
  have hcoord : ∀ j : (⟨2, ![H, Wd]⟩ : Shape).Idx, d.resultIdx? j idx = some (ix2 k n) →
      r0 + (j 0).val = k.val ∧ c0 + (j 1).val = n.val := by
    intro j hj
    rw [hres] at hj
    have he := Option.some.inj hj
    exact ⟨congrArg Fin.val (congrFun he 0), congrArg Fin.val (congrFun he 1)⟩
  -- the claim for any step function that reads at `(k, n)` as the scatter's does
  have key : ∀ step : ((⟨2, ![R, C]⟩ : Shape).Idx → α) → Fin (⟨2, ![H, Wd]⟩ : Shape).numel → ((⟨2, ![R, C]⟩ : Shape).Idx → α),
      (∀ r m, d.resultIdx? ((⟨2, ![H, Wd]⟩ : Shape).rowMajor.symm m) idx = some (ix2 k n) →
        step r m (ix2 k n) = upd ((⟨2, ![H, Wd]⟩ : Shape).rowMajor.symm m)) →
      (∀ r m, d.resultIdx? ((⟨2, ![H, Wd]⟩ : Shape).rowMajor.symm m) idx ≠ some (ix2 k n) →
        step r m (ix2 k n) = r (ix2 k n)) →
      List.foldl step x (List.finRange (⟨2, ![H, Wd]⟩ : Shape).numel) (ix2 k n) =
        if h : (r0 ≤ k.val ∧ k.val < r0 + H) ∧ (c0 ≤ n.val ∧ n.val < c0 + Wd) then
          upd (ix2 ⟨k.val - r0, by omega⟩ ⟨n.val - c0, by omega⟩)
        else x (ix2 k n) := by
    intro step hhit hmiss
    by_cases h : (r0 ≤ k.val ∧ k.val < r0 + H) ∧ (c0 ≤ n.val ∧ n.val < c0 + Wd)
    · rw [dif_pos h]
      have hn0 : d.resultIdx? (ix2 ⟨k.val - r0, by omega⟩ ⟨n.val - c0, by omega⟩) idx = some (ix2 k n) := by
        rw [hres]
        refine congrArg some ?_
        funext a
        match a with
        | ⟨0, _⟩ => exact Fin.ext (by show r0 + (k.val - r0) = k.val; omega)
        | ⟨1, _⟩ => exact Fin.ext (by show c0 + (n.val - c0) = n.val; omega)
      refine (foldl_hit_once (fun m => d.resultIdx? ((⟨2, ![H, Wd]⟩ : Shape).rowMajor.symm m) idx)
        (fun m => upd ((⟨2, ![H, Wd]⟩ : Shape).rowMajor.symm m)) step (ix2 k n) hhit hmiss
        ((⟨2, ![H, Wd]⟩ : Shape).rowMajor (ix2 ⟨k.val - r0, by omega⟩ ⟨n.val - c0, by omega⟩)) ?_ x
        (List.finRange _) (List.mem_finRange _) ?_).trans ?_
      · show d.resultIdx? ((⟨2, ![H, Wd]⟩ : Shape).rowMajor.symm ((⟨2, ![H, Wd]⟩ : Shape).rowMajor _)) idx = _
        rw [Equiv.symm_apply_apply]
        exact hn0
      · intro m _ hm
        have hc := hcoord _ hm
        refine (Equiv.symm_apply_eq _).1 ?_
        funext a
        match a with
        | ⟨0, _⟩ => exact Fin.ext (by show (((⟨2, ![H, Wd]⟩ : Shape).rowMajor.symm m) 0).val = k.val - r0; omega)
        | ⟨1, _⟩ => exact Fin.ext (by show (((⟨2, ![H, Wd]⟩ : Shape).rowMajor.symm m) 1).val = n.val - c0; omega)
      · show upd ((⟨2, ![H, Wd]⟩ : Shape).rowMajor.symm ((⟨2, ![H, Wd]⟩ : Shape).rowMajor _)) = _
        rw [Equiv.symm_apply_apply]
    · rw [dif_neg h]
      refine foldl_untouched (fun m => d.resultIdx? ((⟨2, ![H, Wd]⟩ : Shape).rowMajor.symm m) idx) step (ix2 k n) hmiss
        (List.finRange _) x ?_
      intro m _ hm
      have hc := hcoord _ hm
      have h0 := idx2_lt0 ((⟨2, ![H, Wd]⟩ : Shape).rowMajor.symm m)
      have h1 := idx2_lt1 ((⟨2, ![H, Wd]⟩ : Shape).rowMajor.symm m)
      exact h ⟨⟨by omega, by omega⟩, ⟨by omega, by omega⟩⟩
  unfold Host.scatter
  refine key _ ?_ ?_
  · intro r m hm
    dsimp only
    rw [hm]
    exact if_pos rfl
  · intro r m hm
    dsimp only
    rw [hres] at hm ⊢
    exact if_neg fun h => hm (by rw [h])

end Cert.ScatterSet

end
-- ==== Proof.LibReshape.lean ====
/-
  Two reshapes to the same shape agree when their sources agree in row-major order.

  `[B, 648]` and `[B, 8, 81]` are both reshaped to `[B, 8, 3, 3, 3, 3]`; entry `(b, c, j)` of the second has the
  row-major position `(8 b + c) 81 + j = 648 b + (81 c + j)` of entry `(b, 81 c + j)` of the first. So if the two
  sources agree at those pairs of entries, the two reshaped arrays are equal.
-/
import Idealize.ShloMosaic.PureOps.ShapeOps
import Idealize.ShloMosaic.Lib.ValueIdx
import Idealize.ShloMosaic.Lib.Pipeline.Value

noncomputable section

namespace Cert.Reshape

open Idealize.ShloMosaic Idealize.ShloMosaic.ValueIdx

/-- Column `81 c + j` of the flat layout. -/
def flatCol (c : Fin 8) (j : Fin 81) : Fin 648 := ⟨81 * c.val + j.val, by omega⟩

theorem shapeCast_eq_of_flat {α : Type}
    (Y : (⟨2, ![262144, 648]⟩ : Shape).Idx → α) (R : (⟨3, ![262144, 8, 81]⟩ : Shape).Idx → α)
    (hY : (⟨2, ![262144, 648]⟩ : Shape).ShapeCasts ⟨6, ![262144, 8, 3, 3, 3, 3]⟩)
    (hR : (⟨3, ![262144, 8, 81]⟩ : Shape).ShapeCasts ⟨6, ![262144, 8, 3, 3, 3, 3]⟩)
    (h : ∀ (b : Fin 262144) (c : Fin 8) (j : Fin 81), R (ix3 b c j) = Y (ix2 b (flatCol c j))) :
    shapeCast (⟨6, ![262144, 8, 3, 3, 3, 3]⟩ : Shape) R hR = shapeCast (⟨6, ![262144, 8, 3, 3, 3, 3]⟩ : Shape) Y hY := by
  funext i
  -- both sides read their source at the index matched with i by row-major position
  show R (Shape.reshapeEquiv hR i) = Y (Shape.reshapeEquiv hY i)
  have e : ((⟨3, ![262144, 8, 81]⟩ : Shape).rowMajor (Shape.reshapeEquiv hR i)).val
      = ((⟨6, ![262144, 8, 3, 3, 3, 3]⟩ : Shape).rowMajor i).val := Shape.rowMajor_reshapeEquiv hR i
  generalize Shape.reshapeEquiv hR i = i3 at e ⊢
  -- the rank-3 index by its coordinates (b, c, j); the sources agree there with entry (b, 81 c + j)
  calc R i3 = R (ix3 (i3 0) (i3 1) (i3 2)) := congrArg R (eq_ix3 i3)
    _ = Y (ix2 (i3 0) (flatCol (i3 1) (i3 2))) := h _ _ _
    _ = Y (Shape.reshapeEquiv hY i) := congrArg Y (Shape.reshapeEquiv_eq_of_rowMajor hY ?_).symm
  -- and that entry has i's row-major position: 648 b + (81 c + j) = (8 b + c) 81 + j
  rw [← e, Shape.rowMajor_val_two, Shape.rowMajor_val_three]
  show (i3 0).val * 648 + (81 * (i3 1).val + (i3 2).val) = ((i3 0).val * 8 + (i3 1).val) * 81 + (i3 2).val
  omega

end Cert.Reshape

end
-- ==== Proof.Algebra.lean ====
/-
  The folded matrix product against the sum of three small products, on the extended reals.

  Fix a channel `c < 8`. Column `81 c + j` of the folded `200 × 648` matrix is zero except on three runs of rows:
  row `c` (the degree-0 block), rows `32 + 5 c … 36 + 5 c` (degree 2) and rows `128 + 9 c … 136 + 9 c` (degree 4),
  where it holds the three small weight columns `v0`, `v2`, `v4`, each entry divided by `q`. So the product of a row
  `x` of 200 reals with that column is `x` restricted to the three runs against the three weight columns, and since
  division by a nonzero real `q` is multiplication by `1 / q`, which distributes over finite sums of reals, it is
  the sum of the three small products, divided by `q` once.  Finiteness is used: on the extended reals neither
  `x * 0 = 0` at an infinite `x` matters here nor does distributivity hold at infinities, so every entry is taken real.
-/
import Idealize.ShloMosaic.PureOps.Ideal
import Idealize.ShloMosaic.PureOps.Ideal.Laws
import Mathlib.Algebra.BigOperators.Group.Finset.Basic
import Mathlib.Data.Fintype.BigOperators

noncomputable section

namespace Cert.Algebra

open Idealize.ShloMosaic

/-- Row `128 + 9 c + m` of the degree-4 run. -/
def at4 (c : Fin 8) (m : Fin 9) : Fin 200 := ⟨128 + 9 * c.val + m.val, by omega⟩
/-- Row `32 + 5 c + m` of the degree-2 run. -/
def at2 (c : Fin 8) (m : Fin 5) : Fin 200 := ⟨32 + 5 * c.val + m.val, by omega⟩
/-- Row `c + m` (`m = 0`) of the degree-0 run. -/
def at0 (c : Fin 8) (m : Fin 1) : Fin 200 := ⟨c.val + m.val, by omega⟩

/-- Column `81 c + j` of the folded matrix, row by row: the three runs hold `a0`, `a2`, `a4`; every other row is zero. -/
def col (c : Fin 8) (a0 : Fin 1 → EReal) (a2 : Fin 5 → EReal) (a4 : Fin 9 → EReal) (k : Fin 200) : EReal :=
  if h0 : k.val = c.val then a0 0
  else if h2 : 32 + 5 * c.val ≤ k.val ∧ k.val < 37 + 5 * c.val then a2 ⟨k.val - (32 + 5 * c.val), by omega⟩
  else if h4 : 128 + 9 * c.val ≤ k.val ∧ k.val < 137 + 9 * c.val then a4 ⟨k.val - (128 + 9 * c.val), by omega⟩
  else 0

/-- The coercion of reals into the extended reals commutes with finite sums. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same column with real entries. -/
private def colr (c : Fin 8) (a0 : Fin 1 → ℝ) (a2 : Fin 5 → ℝ) (a4 : Fin 9 → ℝ) (k : Fin 200) : ℝ :=
  if h0 : k.val = c.val then a0 0
  else if h2 : 32 + 5 * c.val ≤ k.val ∧ k.val < 37 + 5 * c.val then a2 ⟨k.val - (32 + 5 * c.val), by omega⟩
  else if h4 : 128 + 9 * c.val ≤ k.val ∧ k.val < 137 + 9 * c.val then a4 ⟨k.val - (128 + 9 * c.val), by omega⟩
  else 0

/-- A column of real entries is the coercion of the real column. -/
private theorem col_coe (c : Fin 8) (a0 : Fin 1 → ℝ) (a2 : Fin 5 → ℝ) (a4 : Fin 9 → ℝ) (k : Fin 200) :
    col c (fun m => (a0 m : EReal)) (fun m => (a2 m : EReal)) (fun m => (a4 m : EReal)) k
      = (colr c a0 a2 a4 k : EReal) := by
  unfold col colr
  split_ifs <;> simp

/-- The real column on the degree-0 run. -/
private theorem colr_at0 (c : Fin 8) (a0 : Fin 1 → ℝ) (a2 : Fin 5 → ℝ) (a4 : Fin 9 → ℝ) (m : Fin 1) :
    colr c a0 a2 a4 (at0 c m) = a0 m := by
  have hm : m = 0 := Subsingleton.elim _ _
  subst hm
  unfold colr at0
  rw [dif_pos (by simp)]

/-- The real column on the degree-2 run. -/
private theorem colr_at2 (c : Fin 8) (a0 : Fin 1 → ℝ) (a2 : Fin 5 → ℝ) (a4 : Fin 9 → ℝ) (m : Fin 5) :
    colr c a0 a2 a4 (at2 c m) = a2 m := by
  unfold colr at2
  rw [dif_neg (by dsimp only; omega), dif_pos (by dsimp only; omega)]
  congr 1
  apply Fin.ext
  dsimp only
  omega

/-- The real column on the degree-4 run. -/
private theorem colr_at4 (c : Fin 8) (a0 : Fin 1 → ℝ) (a2 : Fin 5 → ℝ) (a4 : Fin 9 → ℝ) (m : Fin 9) :
    colr c a0 a2 a4 (at4 c m) = a4 m := by
  unfold colr at4
  rw [dif_neg (by dsimp only; omega), dif_neg (by dsimp only; omega), dif_pos (by dsimp only; omega)]
  congr 1
  apply Fin.ext
  dsimp only
  omega

/-- The three runs as one map from the disjoint union of their index sets. -/
private def runs (c : Fin 8) : Fin 1 ⊕ Fin 5 ⊕ Fin 9 → Fin 200 :=
  Sum.elim (at0 c) (Sum.elim (at2 c) (at4 c))

/-- The three runs are disjoint and each is traversed once. -/
private theorem runs_injective (c : Fin 8) : Function.Injective (runs c) := by
  rintro (a | a | a) (b | b | b) h <;>
    simp only [runs, Sum.elim_inl, Sum.elim_inr, at0, at2, at4, Fin.mk.injEq] at h <;>
    first
      | (exfalso; omega)
      | (have hab : a = b := Fin.ext (by omega)
         rw [hab])

/-- Off the three runs the real column vanishes. -/
private theorem colr_off (c : Fin 8) (a0 : Fin 1 → ℝ) (a2 : Fin 5 → ℝ) (a4 : Fin 9 → ℝ) (k : Fin 200)
    (hk : k ∉ Set.range (runs c)) : colr c a0 a2 a4 k = 0 := by
  unfold colr
  split_ifs with h0 h2 h4
  · exact absurd ⟨Sum.inl 0, Fin.ext (by simp [runs, at0]; omega)⟩ hk
  · exact absurd ⟨Sum.inr (Sum.inl ⟨k.val - (32 + 5 * c.val), by omega⟩),
      Fin.ext (by simp [runs, at2]; omega)⟩ hk
  · exact absurd ⟨Sum.inr (Sum.inr ⟨k.val - (128 + 9 * c.val), by omega⟩),
      Fin.ext (by simp [runs, at4]; omega)⟩ hk
  · rfl

/-- The law over the reals, without the division. -/
private theorem fold_real (x : Fin 200 → ℝ) (c : Fin 8) (a0 : Fin 1 → ℝ) (a2 : Fin 5 → ℝ) (a4 : Fin 9 → ℝ) :
    ∑ k : Fin 200, x k * colr c a0 a2 a4 k
      = ((∑ m : Fin 9, x (at4 c m) * a4 m) + ∑ m : Fin 5, x (at2 c m) * a2 m)
          + ∑ m : Fin 1, x (at0 c m) * a0 m := by
  rw [← Fintype.sum_of_injective (runs c) (runs_injective c)
      (Sum.elim (fun m => x (at0 c m) * a0 m)
        (Sum.elim (fun m => x (at2 c m) * a2 m) (fun m => x (at4 c m) * a4 m)))
      (fun k => x k * colr c a0 a2 a4 k)
      (fun k hk => by rw [colr_off c a0 a2 a4 k hk, mul_zero])
      (by
        rintro (m | m | m)
        · simp only [runs, Sum.elim_inl, colr_at0]
        · simp only [runs, Sum.elim_inl, Sum.elim_inr, colr_at2]
        · simp only [runs, Sum.elim_inr, colr_at4])]
  rw [Fintype.sum_sum_type, Fintype.sum_sum_type]
  simp only [Sum.elim_inl, Sum.elim_inr]
  ring

/-- The law for real entries coerced into the extended reals. -/
private theorem fold_coe (x : Fin 200 → ℝ) (c : Fin 8) (a0 : Fin 1 → ℝ) (a2 : Fin 5 → ℝ) (a4 : Fin 9 → ℝ)
    (q : ℝ) (hq : q ≠ 0) :
    ∑ k : Fin 200, (x k : EReal) * col c (fun m => Ideal.div (a0 m : EReal) (q : EReal))
        (fun m => Ideal.div (a2 m : EReal) (q : EReal)) (fun m => Ideal.div (a4 m : EReal) (q : EReal)) k
      = Ideal.div (((0 + ∑ m : Fin 9, (x (at4 c m) : EReal) * (a4 m : EReal))
          + ∑ m : Fin 5, (x (at2 c m) : EReal) * (a2 m : EReal))
          + ∑ m : Fin 1, (x (at0 c m) : EReal) * (a0 m : EReal)) (q : EReal) := by
  simp only [Ideal.div_coe hq, ← EReal.coe_mul, zero_add]
  rw [funext (col_coe c (fun m => a0 m * (1 / q)) (fun m => a2 m * (1 / q)) (fun m => a4 m * (1 / q)))]
  simp only [← EReal.coe_mul, ← coe_sum, ← EReal.coe_add]
  rw [EReal.coe_eq_coe_iff, fold_real]
  simp only [Finset.sum_mul, add_mul, mul_assoc]

/-- THE LAW: the row times the folded column is the three small products' sum, divided once. -/
theorem fold_eq (x : Fin 200 → EReal) (c : Fin 8) (v0 : Fin 1 → EReal) (v2 : Fin 5 → EReal) (v4 : Fin 9 → EReal) (q : EReal)
    (hx : ∀ k, ∃ r : ℝ, x k = (r : EReal)) (hv0 : ∀ m, ∃ r : ℝ, v0 m = (r : EReal))
    (hv2 : ∀ m, ∃ r : ℝ, v2 m = (r : EReal)) (hv4 : ∀ m, ∃ r : ℝ, v4 m = (r : EReal))
    (hq : ∃ r : ℝ, r ≠ 0 ∧ q = (r : EReal)) :
    ∑ k : Fin 200, x k * col c (fun m => Ideal.div (v0 m) q) (fun m => Ideal.div (v2 m) q) (fun m => Ideal.div (v4 m) q) k
      = Ideal.div (((0 + ∑ m : Fin 9, x (at4 c m) * v4 m) + ∑ m : Fin 5, x (at2 c m) * v2 m)
          + ∑ m : Fin 1, x (at0 c m) * v0 m) q := by
  choose xr hxr using hx
  choose a0 h0 using hv0
  choose a2 h2 using hv2
  choose a4 h4 using hv4
  obtain ⟨qr, hq0, rfl⟩ := hq
  obtain rfl : x = fun k => (xr k : EReal) := funext hxr
  obtain rfl : v0 = fun m => (a0 m : EReal) := funext h0
  obtain rfl : v2 = fun m => (a2 m : EReal) := funext h2
  obtain rfl : v4 = fun m => (a4 m : EReal) := funext h4
  exact fold_coe xr c a0 a2 a4 qr hq0

end Cert.Algebra

end
-- ==== Proof.KernelW.lean ====
/-
  The folded matrix, column by column.

  Column `81 c + j` of the folded matrix meets, of the 24 window writes, only the three of channel `c` (every other
  window lies in other columns): row `c` holds the degree-0 block's entry, rows `32 + 5 c … 36 + 5 c` the degree-2
  block's column `j`, rows `128 + 9 c … 136 + 9 c` the degree-4 block's, every other row the zero it started as.
  Entry `(m, j)` of a block is row `dmRow j` of its weight table at column `m`, over the multiplicity `coef j` (the
  blocks' entries are read in their own module).
-/
import proofs.«163621_j26628797235368_1_alg».proof.Proof.KernelWDefs
import proofs.«163621_j26628797235368_1_alg».proof.Proof.KernelWBlocks
import proofs.«163621_j26628797235368_1_alg».proof.Proof.LibScatterSet
import proofs.«163621_j26628797235368_1_alg».proof.Proof.LibGatherRows
import proofs.«163621_j26628797235368_1_alg».proof.Proof.LibReshape
import proofs.«163621_j26628797235368_1_alg».proof.Proof.Algebra
import Idealize.ShloMosaic.Lib.Pipeline.Value
import Idealize.ShloMosaic.Lib.ValueLayout
import Idealize.ShloMosaic.Lib.ValueIdx
import Idealize.ShloMosaic.PureOps.Ideal
import Idealize.ShloMosaic.PureOps.Ideal.Laws

set_option maxRecDepth 16384

noncomputable section

namespace Cert.KernelIdeal.KW

open Cert.KernelIdeal Cert.KernelIdeal.Gen Idealize.ShloMosaic Idealize.ShloMosaic.ValueIdx

/-- A small natural as a 32-bit word reads back, signed, as itself. -/
private theorem toInt_ofNat_small (r : ℕ) (h : r < 1000) : (BitVec.ofNat 32 r).toInt = (r : ℤ) := by
  have h1 : (BitVec.ofNat 32 r).toNat = r := by
    rw [BitVec.toNat_ofNat]; exact Nat.mod_eq_of_lt (by omega)
  rw [BitVec.toInt_eq_toNat_of_lt (by rw [h1]; omega), h1]

/-- The corner's first word. -/
private theorem corner_fst (a b : BitVec 32) : corner a b (ix1 0) = a := by
  unfold corner
  rw [concatenate_pair_apply_left (0 : Fin S2.rank) _ _ concatenates_S1_S1_S2_d0 (ix1 0) rfl (ix1 0)
    (by intro b; match b with | ⟨0, _⟩ => rfl)]
  rfl

/-- The corner's second word. -/
private theorem corner_snd (a b : BitVec 32) : corner a b (ix1 1) = b := by
  unfold corner
  rw [concatenate_pair_apply_right (0 : Fin S2.rank) _ _ concatenates_S1_S1_S2_d0 (ix1 1) rfl rfl (ix1 0)
    (by intro b hb; match b with | ⟨0, _⟩ => exact absurd rfl hb) (by rfl)]
  rfl

/-- One window write read at an entry (the corner's two words are the literals `r0`, `c0`). -/
theorem put9_apply (X : FVec Ideal S200x648 .f32) (r0 c0 : ℕ) (hr : r0 + 9 ≤ 200) (hc : c0 + 81 ≤ 648)
    (U : FVec Ideal S9x81 .f32) (k : Fin 200) (n : Fin 648) :
    put9 (F := Ideal) X (BitVec.ofNat 32 r0) (BitVec.ofNat 32 c0) U (ix2 k n) =
      if h : (r0 ≤ k.val ∧ k.val < r0 + 9) ∧ (c0 ≤ n.val ∧ n.val < c0 + 81) then
        U (ix2 ⟨k.val - r0, by omega⟩ ⟨n.val - c0, by omega⟩)
      else X (ix2 k n) := by
  unfold put9
  exact Cert.ScatterSet.scatter_set_apply scatter_S200x648_S2_S9x81_01_n_01_0 rfl rfl rfl rfl X
    (corner (BitVec.ofNat 32 r0) (BitVec.ofNat 32 c0)) U r0 c0
    (by rw [corner_fst]; exact toInt_ofNat_small r0 (by omega))
    (by rw [corner_snd]; exact toInt_ofNat_small c0 (by omega)) hr hc k n
theorem put5_apply (X : FVec Ideal S200x648 .f32) (r0 c0 : ℕ) (hr : r0 + 5 ≤ 200) (hc : c0 + 81 ≤ 648)
    (U : FVec Ideal S5x81 .f32) (k : Fin 200) (n : Fin 648) :
    put5 (F := Ideal) X (BitVec.ofNat 32 r0) (BitVec.ofNat 32 c0) U (ix2 k n) =
      if h : (r0 ≤ k.val ∧ k.val < r0 + 5) ∧ (c0 ≤ n.val ∧ n.val < c0 + 81) then
        U (ix2 ⟨k.val - r0, by omega⟩ ⟨n.val - c0, by omega⟩)
      else X (ix2 k n) := by
  unfold put5
  exact Cert.ScatterSet.scatter_set_apply scatter_S200x648_S2_S5x81_01_n_01_0 rfl rfl rfl rfl X
    (corner (BitVec.ofNat 32 r0) (BitVec.ofNat 32 c0)) U r0 c0
    (by rw [corner_fst]; exact toInt_ofNat_small r0 (by omega))
    (by rw [corner_snd]; exact toInt_ofNat_small c0 (by omega)) hr hc k n
theorem put1_apply (X : FVec Ideal S200x648 .f32) (r0 c0 : ℕ) (hr : r0 + 1 ≤ 200) (hc : c0 + 81 ≤ 648)
    (U : FVec Ideal S1x81 .f32) (k : Fin 200) (n : Fin 648) :
    put1 (F := Ideal) X (BitVec.ofNat 32 r0) (BitVec.ofNat 32 c0) U (ix2 k n) =
      if h : (r0 ≤ k.val ∧ k.val < r0 + 1) ∧ (c0 ≤ n.val ∧ n.val < c0 + 81) then
        U (ix2 ⟨k.val - r0, by omega⟩ ⟨n.val - c0, by omega⟩)
      else X (ix2 k n) := by
  unfold put1
  exact Cert.ScatterSet.scatter_set_apply scatter_S200x648_S2_S1x81_01_n_01_0 rfl rfl rfl rfl X
    (corner (BitVec.ofNat 32 r0) (BitVec.ofNat 32 c0)) U r0 c0
    (by rw [corner_fst]; exact toInt_ofNat_small r0 (by omega))
    (by rw [corner_snd]; exact toInt_ofNat_small c0 (by omega)) hr hc k n

/-- Two entries of a matrix with equal coordinates are the same entry. -/
private theorem ix2_congr {n0 n1 : ℕ} {a a' : Fin n0} {b b' : Fin n1} (ha : a.val = a'.val) (hb : b.val = b'.val) :
    ix2 a b = ix2 a' b' := by
  rw [Fin.ext ha, Fin.ext hb]

/-- The same for a one-row matrix: the row coordinate is always the only one. -/
private theorem ix2_congr_row1 {n1 : ℕ} (a a' : Fin 1) {b b' : Fin n1} (hb : b.val = b'.val) :
    ix2 a b = ix2 a' b' := by
  rw [Subsingleton.elim a a', Fin.ext hb]

/-- Each layer of eight writes, read in column `81 c + j`: only channel `c`'s window meets the column. -/
theorem layer4_apply (X : FVec Ideal S200x648 .f32) (U : FVec Ideal S9x81 .f32) (c : Fin 8) (j : Fin 81) (k : Fin 200) :
    layer4 (F := Ideal) X U (ix2 k (Cert.Reshape.flatCol c j)) =
      if h : 128 + 9 * c.val ≤ k.val ∧ k.val < 137 + 9 * c.val then U (ix2 ⟨k.val - (128 + 9 * c.val), by omega⟩ j)
      else X (ix2 k (Cert.Reshape.flatCol c j)) := by
  have hn : (Cert.Reshape.flatCol c j).val = 81 * c.val + j.val := rfl
  have hj := j.isLt
  have hc := c.isLt
  have hk := k.isLt
  unfold layer4
  rw [put9_apply _ 191 567 (by omega) (by omega),
    put9_apply _ 182 486 (by omega) (by omega),
    put9_apply _ 173 405 (by omega) (by omega),
    put9_apply _ 164 324 (by omega) (by omega),
    put9_apply _ 155 243 (by omega) (by omega),
    put9_apply _ 146 162 (by omega) (by omega),
    put9_apply _ 137 81 (by omega) (by omega),
    put9_apply _ 128 0 (by omega) (by omega)]
  split_ifs <;>
    first
      | rfl
      | (exfalso; omega)
      | exact congrArg U (ix2_congr (by simp only [Fin.val_mk]; omega) (by simp only [Fin.val_mk]; omega))
theorem layer2_apply (X : FVec Ideal S200x648 .f32) (U : FVec Ideal S5x81 .f32) (c : Fin 8) (j : Fin 81) (k : Fin 200) :
    layer2 (F := Ideal) X U (ix2 k (Cert.Reshape.flatCol c j)) =
      if h : 32 + 5 * c.val ≤ k.val ∧ k.val < 37 + 5 * c.val then U (ix2 ⟨k.val - (32 + 5 * c.val), by omega⟩ j)
      else X (ix2 k (Cert.Reshape.flatCol c j)) := by
  have hn : (Cert.Reshape.flatCol c j).val = 81 * c.val + j.val := rfl
  have hj := j.isLt
  have hc := c.isLt
  have hk := k.isLt
  unfold layer2
  rw [put5_apply _ 67 567 (by omega) (by omega),
    put5_apply _ 62 486 (by omega) (by omega),
    put5_apply _ 57 405 (by omega) (by omega),
    put5_apply _ 52 324 (by omega) (by omega),
    put5_apply _ 47 243 (by omega) (by omega),
    put5_apply _ 42 162 (by omega) (by omega),
    put5_apply _ 37 81 (by omega) (by omega),
    put5_apply _ 32 0 (by omega) (by omega)]
  split_ifs <;>
    first
      | rfl
      | (exfalso; omega)
      | exact congrArg U (ix2_congr (by simp only [Fin.val_mk]; omega) (by simp only [Fin.val_mk]; omega))
theorem layer0_apply (X : FVec Ideal S200x648 .f32) (U : FVec Ideal S1x81 .f32) (c : Fin 8) (j : Fin 81) (k : Fin 200) :
    layer0 (F := Ideal) X U (ix2 k (Cert.Reshape.flatCol c j)) =
      if k.val = c.val then U (ix2 0 j) else X (ix2 k (Cert.Reshape.flatCol c j)) := by
  have hn : (Cert.Reshape.flatCol c j).val = 81 * c.val + j.val := rfl
  have hj := j.isLt
  have hc := c.isLt
  have hk := k.isLt
  unfold layer0
  rw [put1_apply _ 7 567 (by omega) (by omega),
    put1_apply _ 6 486 (by omega) (by omega),
    put1_apply _ 5 405 (by omega) (by omega),
    put1_apply _ 4 324 (by omega) (by omega),
    put1_apply _ 3 243 (by omega) (by omega),
    put1_apply _ 2 162 (by omega) (by omega),
    put1_apply _ 1 81 (by omega) (by omega),
    put1_apply _ 0 0 (by omega) (by omega)]
  split_ifs <;>
    first
      | rfl
      | (exfalso; omega)
      | exact congrArg U (ix2_congr_row1 _ _ (by simp only [Fin.val_mk]; omega))

/-- THE FOLDED MATRIX IN COLUMN `81 c + j`: the column the product law is stated over. -/
theorem Wfun_apply (V4 : FVec Ideal S15x9 .f32) (V2 : FVec Ideal S15x5 .f32) (V0 : FVec Ideal S15x1 .f32)
    (c : Fin 8) (j : Fin 81) (k : Fin 200) :
    Wfun (F := Ideal) V4 V2 V0 (ix2 k (Cert.Reshape.flatCol c j)) =
      Cert.Algebra.col c (fun mm => Ideal.div (V0 (ix2 (dmRow j) mm)) (coef j))
        (fun mm => Ideal.div (V2 (ix2 (dmRow j) mm)) (coef j))
        (fun mm => Ideal.div (V4 (ix2 (dmRow j) mm)) (coef j)) k := by
  have hW0 : W0 (F := Ideal) (ix2 k (Cert.Reshape.flatCol c j)) = 0 := Ideal.ofBits_zero_f32
  have hc := c.isLt
  have hk := k.isLt
  show Wf32 (F := Ideal) V4 V2 V0 (ix2 k (Cert.Reshape.flatCol c j)) = _
  unfold Wf32
  rw [layer4_apply, layer2_apply, layer0_apply, hW0]
  simp only [A4_apply, A2_apply, A0_apply]
  unfold Cert.Algebra.col
  split_ifs <;>
    first
      | (exfalso; omega)
      | rfl

end Cert.KernelIdeal.KW

end
-- ==== Proof.LibDot3.lean ====
/-
  A batch of row vectors times a transposed matrix, read at an entry.

  `einsum('bcm,dm->bcd', l, r)` lowers to a `dot_general` contracting the left operand's axis 2 with the right
  operand's axis 1, the left's remaining axes 0 and 1 then the right's remaining axis 0 as the result's axes, no
  batch axis. On the extended reals its entry `(b, c, dd)` is the textbook sum `∑ k, l (b, c, k) * r (dd, k)`.

  The dimension record is a variable; its printed fields enter as hypotheses (each is `rfl` for a printed record).
-/
import Idealize.ShloMosaic.PureOps.Ideal
import Idealize.ShloMosaic.PureOps.Ideal.Laws
import Idealize.ShloMosaic.Lib.ValueIdx

noncomputable section

namespace Cert.Dot3

open Idealize.ShloMosaic Idealize.ShloMosaic.ValueIdx

variable {B Cc M D : ℕ}
  (d : DotDims (⟨3, ![B, Cc, M]⟩ : Shape) (⟨2, ![D, M]⟩ : Shape) (⟨3, ![B, Cc, D]⟩ : Shape))

/-- A coordinate of an index depends only on the axis' position. -/
private theorem coord_congr {s : Shape} (j : s.Idx) (p q : Nat) (hp : p < s.rank) (hq : q < s.rank) (h : p = q) :
    (j ⟨p, hp⟩).val = (j ⟨q, hq⟩).val := by subst h; rfl

/-- The left operand's axis 0 is the first of its remaining axes: it reads the result's axis 0. -/
private theorem lhs_ax0 (hln : d.lhsNonContracting = [0, 1]) (hlb : d.lhsBatch = [])
    (j : (⟨3, ![B, Cc, D]⟩ : Shape).Idx) (k : d.contr.Idx) : (d.lhsIdx j k 0).val = (j 0).val := by
  unfold DotDims.lhsIdx
  rw [dif_neg (by rw [hlb]; exact List.not_mem_nil), dif_pos (by rw [hln]; simp)]
  simp only [Fin.val_cast]
  exact coord_congr j _ _ _ _ (by simp [hlb, hln])

/-- The left operand's axis 1 is the second of its remaining axes: it reads the result's axis 1. -/
private theorem lhs_ax1 (hln : d.lhsNonContracting = [0, 1]) (hlb : d.lhsBatch = [])
    (j : (⟨3, ![B, Cc, D]⟩ : Shape).Idx) (k : d.contr.Idx) : (d.lhsIdx j k 1).val = (j 1).val := by
  unfold DotDims.lhsIdx
  rw [dif_neg (by rw [hlb]; exact List.not_mem_nil), dif_pos (by rw [hln]; simp)]
  simp only [Fin.val_cast]
  exact coord_congr j _ _ _ _ (by simp [hlb, hln])

/-- The right operand's axis 0 is its one remaining axis, placed after the left operand's two: it reads the
    result's axis 2. -/
private theorem rhs_ax0 (hln : d.lhsNonContracting = [0, 1]) (hrn : d.rhsNonContracting = [0])
    (hlb : d.lhsBatch = []) (hrb : d.rhsBatch = [])
    (j : (⟨3, ![B, Cc, D]⟩ : Shape).Idx) (k : d.contr.Idx) : (d.rhsIdx j k 0).val = (j 2).val := by
  unfold DotDims.rhsIdx
  rw [dif_neg (by rw [hrb]; exact List.not_mem_nil), dif_pos (by rw [hrn]; simp)]
  simp only [Fin.val_cast]
  exact coord_congr j _ _ _ _ (by simp [hlb, hln, hrn])

/-- The host's `dot_general`, at an entry, on the extended reals. -/
theorem dotGeneral_apply {φ₁ φ₂ : FTy} (hlc : d.lhsContracting = [2]) (hrc : d.rhsContracting = [1])
    (hln : d.lhsNonContracting = [0, 1]) (hrn : d.rhsNonContracting = [0]) (hlb : d.lhsBatch = []) (hrb : d.rhsBatch = [])
    (prec : Option ContractPrecision) (sched : HostSchedule)
    (l : FVec Ideal (⟨3, ![B, Cc, M]⟩ : Shape) φ₁) (r : FVec Ideal (⟨2, ![D, M]⟩ : Shape) φ₂)
    (b : Fin B) (c : Fin Cc) (dd : Fin D) :
    FloatOps.dotGeneral d prec sched l r (ix3 b c dd) = ∑ k : Fin M, l (ix3 b c k) * r (ix2 dd k) := by
  -- the entry is the sum, over the contraction index, of the products of the operands at their indices
  rw [Ideal.dotGeneral_apply]
  -- one axis is contracted, of extent M: the contraction index is its one coordinate
  have hr : d.contr.rank = 1 := by rw [d.rank_contr, hlc]; rfl
  have hs : d.contr.size ⟨0, by omega⟩ = M := by
    rw [d.size_contr 0 (by rw [hlc]; exact Nat.one_pos)]
    simp only [hlc]
    rfl
  rw [← Equiv.sum_comp (contrEquiv1 d M hr hs).symm]
  refine Finset.sum_congr rfl fun k _ => ?_
  -- the left operand is read at (b, c, k) …
  have hL : d.lhsIdx (ix3 b c dd) ((contrEquiv1 d M hr hs).symm k) = ix3 b c k := by
    funext a; apply Fin.ext
    match a with
    | ⟨0, _⟩ => exact lhs_ax0 d hln hlb _ _
    | ⟨1, _⟩ => exact lhs_ax1 d hln hlb _ _
    | ⟨2, _⟩ => exact (d.lhsIdx_val_of_single hlc _ _).trans (contrEquiv1_symm_val d M hr hs k)
  -- … and the right operand at (dd, k)
  have hR : d.rhsIdx (ix3 b c dd) ((contrEquiv1 d M hr hs).symm k) = ix2 dd k := by
    funext a; apply Fin.ext
    match a with
    | ⟨0, _⟩ => exact rhs_ax0 d hln hrn hlb hrb _ _
    | ⟨1, _⟩ => exact (d.rhsIdx_val_of_single hrc _ _).trans (contrEquiv1_symm_val d M hr hs k)
  rw [hL, hR]

end Cert.Dot3

end
-- ==== Proof.RefValue.lean ====
/-
  The reference's Cartesian entries, index by index, on the extended reals.

  Entry `(b, c, j)` of the reference's array before its last reshape: the gather reads monomial `dmRow j` of channel
  `c` of row `b`; that monomial coefficient is zero plus the three products' entries, each a sum over the degree's
  `2l+1` columns of `x` — columns `128 + 9 c + m`, `32 + 5 c + m` and `c` — against row `dmRow j` of the weight
  table; and the whole is divided by the multiplicity `coef j`.
-/
import proofs.«163621_j26628797235368_1_alg».proof.Proof.RefRun
import proofs.«163621_j26628797235368_1_alg».proof.Proof.LibGatherRows
import proofs.«163621_j26628797235368_1_alg».proof.Proof.LibDot3
import proofs.«163621_j26628797235368_1_alg».proof.Proof.Algebra
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.HandRun Idealize.ShloMosaic Idealize.ShloMosaic.ValueIdx

/-- The monomial the gather reads for Cartesian entry `j`: the index table's entry, wrapped and clamped into `[0, 14]`. -/
def dmRow (j : Fin 81) : Fin 15 := Cert.GatherRows.rowOf (N := 15) (by decide) dmIdx j

/-- The multiplicity of Cartesian entry `j`. -/
def coef (j : Fin 81) : EReal := Ideal.ofBits .f32 (lit1 j)

/-- The degree-4 block at `(b, c, m)` is `x` at row `b`, column `128 + 9 c + m`: the reshape keeps the row-major position
    `(8 b + c) 9 + m = 72 b + (9 c + m)`, and the slice shifts the column by 128. -/
private theorem blk9_apply (x : FVec Ideal S262144x200 .f32) (b : Fin 262144) (c : Fin 8) (m : Fin 9) :
    blk9 (F := Ideal) x (ix3 b c m) = x (ix2 b (Cert.Algebra.at4 c m)) := by
  unfold blk9
  refine (shapeCast_apply _ _ (ix3 b c m) (ix2 b (⟨9 * c.val + m.val, by omega⟩ : Fin 72)) ?_).trans ?_
  · rw [Shape.rowMajor_val_two, Shape.rowMajor_val_three]
    show b.val * 72 + (9 * c.val + m.val) = (b.val * 8 + c.val) * 9 + m.val
    omega
  · refine extractStridedSlice_apply _ _ _ _ (ix2 b (Cert.Algebra.at4 c m)) ?_
    intro a
    match a with
    | ⟨0, _⟩ =>
      show b.val = 0 + b.val
      omega
    | ⟨1, _⟩ =>
      show 128 + 9 * c.val + m.val = 128 + (9 * c.val + m.val)
      omega

/-- The degree-2 block at `(b, c, m)` is `x` at row `b`, column `32 + 5 c + m`: the position `(8 b + c) 5 + m = 40 b + (5 c + m)`,
    the column shifted by 32. -/
private theorem blk5_apply (x : FVec Ideal S262144x200 .f32) (b : Fin 262144) (c : Fin 8) (m : Fin 5) :
    blk5 (F := Ideal) x (ix3 b c m) = x (ix2 b (Cert.Algebra.at2 c m)) := by
  unfold blk5
  refine (shapeCast_apply _ _ (ix3 b c m) (ix2 b (⟨5 * c.val + m.val, by omega⟩ : Fin 40)) ?_).trans ?_
  · rw [Shape.rowMajor_val_two, Shape.rowMajor_val_three]
    show b.val * 40 + (5 * c.val + m.val) = (b.val * 8 + c.val) * 5 + m.val
    omega
  · refine extractStridedSlice_apply _ _ _ _ (ix2 b (Cert.Algebra.at2 c m)) ?_
    intro a
    match a with
    | ⟨0, _⟩ =>
      show b.val = 0 + b.val
      omega
    | ⟨1, _⟩ =>
      show 32 + 5 * c.val + m.val = 32 + (5 * c.val + m.val)
      omega

/-- The degree-0 block at `(b, c, m)` (`m = 0`) is `x` at row `b`, column `c + m`: the position `(8 b + c) 1 + m = 8 b + (c + m)`,
    no shift. -/
private theorem blk1_apply (x : FVec Ideal S262144x200 .f32) (b : Fin 262144) (c : Fin 8) (m : Fin 1) :
    blk1 (F := Ideal) x (ix3 b c m) = x (ix2 b (Cert.Algebra.at0 c m)) := by
  unfold blk1
  refine (shapeCast_apply _ _ (ix3 b c m) (ix2 b (⟨c.val + m.val, by omega⟩ : Fin 8)) ?_).trans ?_
  · rw [Shape.rowMajor_val_two, Shape.rowMajor_val_three]
    show b.val * 8 + (c.val + m.val) = (b.val * 8 + c.val) * 1 + m.val
    omega
  · refine extractStridedSlice_apply _ _ _ _ (ix2 b (Cert.Algebra.at0 c m)) ?_
    intro a
    match a with
    | ⟨0, _⟩ =>
      show b.val = 0 + b.val
      omega
    | ⟨1, _⟩ =>
      show c.val + m.val = 0 + (c.val + m.val)
      omega

/-- The divisor at `(b, c, j)`: the multiplicity table broadcast along its own axis, first to `[1, 1, 81]` and then to the
    whole array, reads entry `j` whatever `b` and `c` are. -/
private theorem coefB_apply (b : Fin 262144) (c : Fin 8) (j : Fin 81) :
    broadcastInDim S262144x8x81 ![0, 1, 2] bcast_S1x1x81_S262144x8x81_0_1_2
      (broadcastInDim S1x1x81 ![2] bcast_S81_S1x1x81_2 (coefTable (F := Ideal))) (ix3 b c j) = coef j := by
  refine (broadcastInDim_apply _ _ _ (ix3 b c j) (ix3 (0 : Fin 1) (0 : Fin 1) j) ?_).trans ?_
  · intro a
    match a with
    | ⟨0, _⟩ => rfl
    | ⟨1, _⟩ => rfl
    | ⟨2, _⟩ => rfl
  refine (broadcastInDim_apply _ _ _ (ix3 (0 : Fin 1) (0 : Fin 1) j) (ix1 j) ?_).trans ?_
  · intro a
    match a with
    | ⟨0, _⟩ => rfl
  unfold coefTable coef
  show Ideal.ofBits .f32 (lit1 (S81.rowMajor (ix1 j))) = Ideal.ofBits .f32 (lit1 j)
  rw [show S81.rowMajor (ix1 j) = j from Fin.ext (Shape.rowMajor_val_one _)]

/-- The monomial coefficient `d` of channel `c` of row `b`: the zero array's entry is `0`, and each product's entry is the
    sum over the degree's columns of the block's entry — `x` at the degree's run of columns — times row `d` of the weight table. -/
private theorem monomials_apply (x : FVec Ideal S262144x200 .f32) (V4 : FVec Ideal S15x9 .f32) (V2 : FVec Ideal S15x5 .f32)
    (V0 : FVec Ideal S15x1 .f32) (b : Fin 262144) (c : Fin 8) (d : Fin 15) :
    monomials (F := Ideal) x V4 V2 V0 (ix3 b c d) =
      ((0 + ∑ m : Fin 9, x (ix2 b (Cert.Algebra.at4 c m)) * V4 (ix2 d m))
          + ∑ m : Fin 5, x (ix2 b (Cert.Algebra.at2 c m)) * V2 (ix2 d m))
        + ∑ m : Fin 1, x (ix2 b (Cert.Algebra.at0 c m)) * V0 (ix2 d m) := by
  unfold monomials
  rw [addf_apply, addf_apply, addf_apply]
  have hz : broadcastInDim S262144x8x15 ![] bcast_S_S262144x8x15 (constant (F := Ideal) S_ .f32 0x00000000#32) (ix3 b c d) = 0 :=
    Ideal.ofBits_zero_f32
  rw [hz]
  simp only [Host.dotGeneral]
  rw [Cert.Dot3.dotGeneral_apply _ rfl rfl rfl rfl rfl rfl none .single (blk9 x) V4 b c d,
    Cert.Dot3.dotGeneral_apply _ rfl rfl rfl rfl rfl rfl none .single (blk5 x) V2 b c d,
    Cert.Dot3.dotGeneral_apply _ rfl rfl rfl rfl rfl rfl none .single (blk1 x) V0 b c d]
  rw [Fintype.sum_congr _ _ (fun m : Fin 9 => show blk9 (F := Ideal) x (ix3 b c m) * V4 (ix2 d m)
        = x (ix2 b (Cert.Algebra.at4 c m)) * V4 (ix2 d m) by rw [blk9_apply]),
    Fintype.sum_congr _ _ (fun m : Fin 5 => show blk5 (F := Ideal) x (ix3 b c m) * V2 (ix2 d m)
        = x (ix2 b (Cert.Algebra.at2 c m)) * V2 (ix2 d m) by rw [blk5_apply]),
    Fintype.sum_congr _ _ (fun m : Fin 1 => show blk1 (F := Ideal) x (ix3 b c m) * V0 (ix2 d m)
        = x (ix2 b (Cert.Algebra.at0 c m)) * V0 (ix2 d m) by rw [blk1_apply])]

/-- THE REFERENCE AT `(b, c, j)`. -/
theorem refFlat_apply (x : FVec Ideal S262144x200 .f32) (V4 : FVec Ideal S15x9 .f32) (V2 : FVec Ideal S15x5 .f32)
    (V0 : FVec Ideal S15x1 .f32) (b : Fin 262144) (c : Fin 8) (j : Fin 81) :
    refFlat (F := Ideal) x V4 V2 V0 (ix3 b c j) =
      Ideal.div (((0 + ∑ m : Fin 9, x (ix2 b (Cert.Algebra.at4 c m)) * V4 (ix2 (dmRow j) m))
            + ∑ m : Fin 5, x (ix2 b (Cert.Algebra.at2 c m)) * V2 (ix2 (dmRow j) m))
          + ∑ m : Fin 1, x (ix2 b (Cert.Algebra.at0 c m)) * V0 (ix2 (dmRow j) m)) (coef j) := by
  unfold refFlat
  -- the host's division is entry by entry: the gathered entry over the divisor's entry
  show Ideal.div
      (Host.gather gather_S262144x8x15_S81x1_S262144x8x81_01_2_n_n_2_1_26214481 (monomials (F := Ideal) x V4 V2 V0) dmIdx (ix3 b c j))
      (broadcastInDim S262144x8x81 ![0, 1, 2] bcast_S1x1x81_S262144x8x81_0_1_2
        (broadcastInDim S1x1x81 ![2] bcast_S81_S1x1x81_2 (coefTable (F := Ideal))) (ix3 b c j)) = _
  -- the divisor's entry is the multiplicity `coef j`; the gather along the last axis reads monomial `dmRow j` of `(b, c)`
  rw [coefB_apply b c j,
    Cert.GatherRows.gather_last_apply (N := 15) (by decide) _ rfl rfl rfl rfl rfl rfl rfl (monomials (F := Ideal) x V4 V2 V0) dmIdx b c j]
  show Ideal.div (monomials (F := Ideal) x V4 V2 V0 (ix3 b c (dmRow j))) (coef j) = _
  -- that monomial coefficient is zero plus the three sums
  rw [monomials_apply x V4 V2 V0 b c (dmRow j)]

end Cert.ReferenceIdeal.RefValue

end
-- ==== Proof.Consts.lean ====
/-
  The float constants of this certificate, as the extended reals their binary32 patterns denote.

  `0x7F800000` (exponent all ones, significand zero, sign clear) denotes `+∞`; `0x3F800000`, `0x40800000`,
  `0x40C00000`, `0x41400000` denote the reals 1, 4, 6, 12 (the multiplicities `4! / (a! b! c!)`).
-/
import Idealize.ShloMosaic.PureOps.Ideal

noncomputable section

namespace Cert.Consts

open Idealize.ShloMosaic

/-- The pattern `0x7F800000` denotes `+∞`. -/
theorem ofBits_inf : Ideal.ofBits .f32 0x7F800000#32 = (⊤ : EReal) := by
  simp [Ideal.ofBits, Ideal.ieee]

/-- The pattern `0x3F800000` denotes 1. -/
theorem ofBits_1 : Ideal.ofBits .f32 0x3F800000#32 = ((1 : ℝ) : EReal) := by
  simp [Ideal.ofBits, Ideal.ieee, -EReal.coe_mul]; norm_num

/-- The pattern `0x40800000` denotes 4. -/
theorem ofBits_4 : Ideal.ofBits .f32 0x40800000#32 = ((4 : ℝ) : EReal) := by
  simp [Ideal.ofBits, Ideal.ieee, -EReal.coe_mul]; norm_num

/-- The pattern `0x40C00000` denotes 6. -/
theorem ofBits_6 : Ideal.ofBits .f32 0x40C00000#32 = ((6 : ℝ) : EReal) := by
  simp [Ideal.ofBits, Ideal.ieee, -EReal.coe_mul]; norm_num

/-- The pattern `0x41400000` denotes 12. -/
theorem ofBits_12 : Ideal.ofBits .f32 0x41400000#32 = ((12 : ℝ) : EReal) := by
  simp [Ideal.ofBits, Ideal.ieee, -EReal.coe_mul]; norm_num

end Cert.Consts

end
-- ==== Proof.Tables.lean ====
/-
  The two constant tables.

  Both programs carry the same two 81-entry constants: the monomial number of each Cartesian entry (integers in
  `[0, 14]`) and its multiplicity `4! / (a! b! c!)`, one of 1, 4, 6, 12 as a binary32 pattern. Each program prints its
  own copy; the copies are equal entry by entry, and every multiplicity is a nonzero real.
-/
import proofs.«163621_j26628797235368_1_alg».proof.KernelIdeal
import proofs.«163621_j26628797235368_1_alg».proof.ReferenceIdeal
import Idealize.ShloMosaic.PureOps.Ideal
import proofs.«163621_j26628797235368_1_alg».proof.Proof.Consts

noncomputable section

namespace Cert.Tables

open Idealize.ShloMosaic

/-- Each entry of the multiplicity table is one of the four patterns of 1, 4, 6, 12. -/
private theorem lit1_cases : ∀ j : Fin 81, Cert.ReferenceIdeal.lit1 j = 0x3F800000#32 ∨ Cert.ReferenceIdeal.lit1 j = 0x40800000#32
    ∨ Cert.ReferenceIdeal.lit1 j = 0x40C00000#32 ∨ Cert.ReferenceIdeal.lit1 j = 0x41400000#32 := by
  decide

/-- The monomial-number tables of the two programs are one table. -/
theorem lit0_eq : Cert.KernelIdeal.lit0 = Cert.ReferenceIdeal.lit0 := by
  funext j; revert j; decide

/-- The multiplicity tables of the two programs are one table. -/
theorem lit1_eq : Cert.KernelIdeal.lit1 = Cert.ReferenceIdeal.lit1 := by
  funext j; revert j; decide

/-- Every multiplicity is a nonzero real number. -/
theorem coef_real (j : Fin 81) : ∃ r : ℝ, r ≠ 0 ∧ Ideal.ofBits .f32 (Cert.ReferenceIdeal.lit1 j) = (r : EReal) := by
  rcases lit1_cases j with h | h | h | h <;> rw [h]
  · exact ⟨1, by norm_num, Cert.Consts.ofBits_1⟩
  · exact ⟨4, by norm_num, Cert.Consts.ofBits_4⟩
  · exact ⟨6, by norm_num, Cert.Consts.ofBits_6⟩
  · exact ⟨12, by norm_num, Cert.Consts.ofBits_12⟩

end Cert.Tables

end
-- ==== Proof.Bridge.lean ====
/-
  The kernel's product is the reference's result.

  Both programs end in a reshape to `[B, 8, 3, 3, 3, 3]`, the kernel's from the `[B, 648]` product `x · W`, the
  reference's from its `[B, 8, 81]` array of Cartesian entries; so it is enough that entry `(b, 81 c + j)` of the
  first is entry `(b, c, j)` of the second. The first is row `b` of `x` against column `81 c + j` of the folded matrix,
  which holds the three weight columns of monomial `dmRow j` over the multiplicity `coef j` on channel `c`'s three runs
  of rows and zero elsewhere; the second is the three small products summed and divided by `coef j` once. For finite
  inputs these are equal (the product law). The two programs' copies of the index table and of the multiplicity table
  are equal, so both read the same monomial and divide by the same number.
-/
import proofs.«163621_j26628797235368_1_alg».proof.Proof.KernelValue
import proofs.«163621_j26628797235368_1_alg».proof.Proof.KernelW
import proofs.«163621_j26628797235368_1_alg».proof.Proof.RefRun
import proofs.«163621_j26628797235368_1_alg».proof.Proof.RefValue
import proofs.«163621_j26628797235368_1_alg».proof.Proof.Algebra
import proofs.«163621_j26628797235368_1_alg».proof.Proof.LibReshape
import proofs.«163621_j26628797235368_1_alg».proof.Proof.Tables

noncomputable section

namespace Cert.Bridge

open Idealize.ShloMosaic Idealize.ShloMosaic.ValueIdx

/-- The two programs gather at the same start indices. -/
theorem dmIdx_eq : Cert.KernelIdeal.KW.dmIdx = Cert.ReferenceIdeal.HandRun.dmIdx := by
  unfold Cert.KernelIdeal.KW.dmIdx Cert.ReferenceIdeal.HandRun.dmIdx Cert.KernelIdeal.KW.dmTable
    Cert.ReferenceIdeal.HandRun.dmTable
  rw [Cert.Tables.lit0_eq]

/-- So they read the same monomial for each Cartesian entry, -/
theorem dmRow_eq (j : Fin 81) : Cert.KernelIdeal.KW.dmRow j = Cert.ReferenceIdeal.RefValue.dmRow j := by
  unfold Cert.KernelIdeal.KW.dmRow Cert.ReferenceIdeal.RefValue.dmRow
  rw [dmIdx_eq]

/-- and divide by the same multiplicity. -/
theorem coef_eq (j : Fin 81) : Cert.KernelIdeal.KW.coef j = Cert.ReferenceIdeal.RefValue.coef j := by
  unfold Cert.KernelIdeal.KW.coef Cert.ReferenceIdeal.RefValue.coef
  rw [Cert.Tables.lit1_eq]

/-- ENTRY BY ENTRY: the reference's `(b, c, j)` is the product's `(b, 81 c + j)`, for real inputs. -/
theorem entry_eq (x : FVec Ideal Cert.KernelIdeal.S262144x200 .f32) (V4 : FVec Ideal Cert.KernelIdeal.S15x9 .f32)
    (V2 : FVec Ideal Cert.KernelIdeal.S15x5 .f32) (V0 : FVec Ideal Cert.KernelIdeal.S15x1 .f32)
    (hx : ∀ i, ∃ r : ℝ, x i = (r : EReal)) (h4 : ∀ i, ∃ r : ℝ, V4 i = (r : EReal))
    (h2 : ∀ i, ∃ r : ℝ, V2 i = (r : EReal)) (h0 : ∀ i, ∃ r : ℝ, V0 i = (r : EReal))
    (b : Fin 262144) (c : Fin 8) (j : Fin 81) :
    Cert.ReferenceIdeal.HandRun.refFlat (F := Ideal) x V4 V2 V0 (ix3 b c j)
      = Cert.KernelIdeal.KVal.prod x (Cert.KernelIdeal.KW.Wfun (F := Ideal) V4 V2 V0) (ix2 b (Cert.Reshape.flatCol c j)) := by
  rw [Cert.ReferenceIdeal.RefValue.refFlat_apply, Cert.KernelIdeal.KVal.prod_apply]
  rw [Finset.sum_congr rfl fun k _ => congrArg (x (ix2 b k) * ·) (Cert.KernelIdeal.KW.Wfun_apply V4 V2 V0 c j k)]
  rw [dmRow_eq, coef_eq]
  exact (Cert.Algebra.fold_eq (fun k => x (ix2 b k)) c (fun mm => V0 (ix2 (Cert.ReferenceIdeal.RefValue.dmRow j) mm))
    (fun mm => V2 (ix2 (Cert.ReferenceIdeal.RefValue.dmRow j) mm)) (fun mm => V4 (ix2 (Cert.ReferenceIdeal.RefValue.dmRow j) mm))
    (Cert.ReferenceIdeal.RefValue.coef j) (fun k => hx _) (fun mm => h0 _) (fun mm => h2 _) (fun mm => h4 _)
    (Cert.Tables.coef_real j)).symm

/-- THE RESULTS: the kernel's reshaped product is the reference's term. -/
theorem result_eq (x : FVec Ideal Cert.KernelIdeal.S262144x200 .f32) (V4 : FVec Ideal Cert.KernelIdeal.S15x9 .f32)
    (V2 : FVec Ideal Cert.KernelIdeal.S15x5 .f32) (V0 : FVec Ideal Cert.KernelIdeal.S15x1 .f32)
    (hx : ∀ i, ∃ r : ℝ, x i = (r : EReal)) (h4 : ∀ i, ∃ r : ℝ, V4 i = (r : EReal))
    (h2 : ∀ i, ∃ r : ℝ, V2 i = (r : EReal)) (h0 : ∀ i, ∃ r : ℝ, V0 i = (r : EReal)) :
    Cert.ReferenceIdeal.HandRun.refTerm (F := Ideal) x V4 V2 V0
      = shapeCast Cert.KernelIdeal.S262144x8x3x3x3x3
          (Cert.KernelIdeal.KVal.prod x (Cert.KernelIdeal.KW.Wfun (F := Ideal) V4 V2 V0))
          Cert.KernelIdeal.Gen.shapeCasts_S262144x648_S262144x8x3x3x3x3 := by
  unfold Cert.ReferenceIdeal.HandRun.refTerm
  exact Cert.Reshape.shapeCast_eq_of_flat _ _ _ _ (fun b c j => entry_eq x V4 V2 V0 hx h4 h2 h0 b c j)

end Cert.Bridge

end
-- ==== Proof.Finite.lean ====
/-
  Finite inputs are real numbers.

  The precondition says, of each of the four float arguments, that every entry `e` satisfies `|e| < +∞` (an
  all-reduction of the comparison, the four conjoined). On the extended reals that is exactly: every entry is a real.
-/
import proofs.«163621_j26628797235368_1_alg».proof.Pre_finite_inputs
import Idealize.ShloMosaic.PureOps.Ideal
import Idealize.ShloMosaic.Lib.ReduceAll
import Idealize.ShloMosaic.Lib.ValueIdx
import proofs.«163621_j26628797235368_1_alg».proof.Proof.Consts

noncomputable section

namespace Cert.Finite

open Idealize.ShloMosaic Cert.Pre_finite_inputs

/-- On one value: where `|e| < +∞` compares true, `e` is a real number (`max e (-e)` is `⊤` at both infinities). -/
private theorem real_of_abs_lt_inf (e : Ideal .f32)
    (h : FloatOps.cmpf .olt (FloatOps.hostAbsf e) (FloatOps.ofBits (F := Ideal) .f32 0x7F800000#32) = 1#1) :
    ∃ r : ℝ, (e : EReal) = (r : EReal) := by
  change Ideal.cmp .olt (max (e : EReal) (-(e : EReal))) (Ideal.ofBits .f32 0x7F800000#32) = 1#1 at h
  rw [Cert.Consts.ofBits_inf] at h
  unfold Ideal.cmp at h
  induction e using EReal.rec with
  | bot => simp at h
  | coe r => exact ⟨r, rfl⟩
  | top => simp at h

/-- One argument: where the all-reduction of `|x| < +∞` is 1, every entry of `x` is a real number. -/
private theorem all_real {s : Shape} {axes : List (Fin s.rank)} (hb : S_.BroadcastsInDim s (![] : Fin 0 → Fin s.rank))
    (hr : s.ReducesTo axes S_) (hu : 0 < S_.numel) (x : FVec Ideal s .f32)
    (h : Host.reduce IntOp.andi
          (cmpf .olt (Host.absf x) (broadcastInDim s ![] hb (constant (F := Ideal) S_ .f32 0x7F800000#32)))
          (constantI S_ 1 1#1) hr hu ValueIdx.ix0 = 1#1) :
    ∀ i, ∃ r : ℝ, x i = (r : EReal) := by
  intro i
  -- the rank-0 shape has one index
  haveI : Subsingleton S_.Idx := ⟨fun a b => funext fun d => d.elim0⟩
  have hi := Host.reduce_andi_all _ _ hr hu ValueIdx.ix0 h i
  exact real_of_abs_lt_inf (x i) hi

/-- Where the precondition evaluates to all ones, each argument's every entry is a real number. -/
theorem real_of_pre [Cert.Pre_finite_inputs.Facts]
    (x : FVec Ideal S262144x200 .f32) (v4 : FVec Ideal S15x9 .f32) (v2 : FVec Ideal S15x5 .f32) (v0 : FVec Ideal S15x1 .f32)
    (h : Cert.Pre_finite_inputs.fn (F := Ideal) x v4 v2 v0 = fun _ => 1#1) :
    (∀ i, ∃ r : ℝ, x i = (r : EReal)) ∧ (∀ i, ∃ r : ℝ, v4 i = (r : EReal))
      ∧ (∀ i, ∃ r : ℝ, v2 i = (r : EReal)) ∧ (∀ i, ∃ r : ℝ, v0 i = (r : EReal)) := by
  have h0 := congrFun h ValueIdx.ix0
  dsimp only [fn, fn_part1] at h0
  unfold andi at h0
  obtain ⟨h123, h4⟩ := IntOp.andi_eq_one.1 h0
  obtain ⟨h12, h3⟩ := IntOp.andi_eq_one.1 h123
  obtain ⟨h1, h2⟩ := IntOp.andi_eq_one.1 h12
  exact ⟨all_real _ _ _ x h1, all_real _ _ _ v4 h2, all_real _ _ _ v2 h3, all_real _ _ _ v0 h4⟩

end Cert.Finite

end
-- ==== Proof.lean ====
/-
  The kernel computes the reference's rank-4 Cartesian tensors.

  The reference splits each row of `x : [B, 200]` into its degree blocks, contracts the degree-4, -2 and -0 blocks
  of every channel with the weight tables `V4`, `V2`, `V0` to fifteen monomial coefficients, gathers them along the
  81 Cartesian entries and divides by each entry's multiplicity. The kernel folds all of that into one
  `200 × 648` matrix `W`, built on the host by 24 window writes of the gathered, divided, transposed weight blocks
  into zeros, and computes `x · W` block by block on the grid. On the extended reals a change of float format is the
  identity and a product accumulated onto zero is the plain sum, so the claim is the product law of Proof/Algebra.lean:
  a row of `x` against a column of `W` is the sum of the three small contractions, divided once — true for finite
  inputs, which the precondition provides. The three frames: the two kernel programs' are the generated frame
  certificates; the reference's is its run (Proof/RefRun.lean) with the result forgotten. The ideal pass rewrote
  nothing, so `preserves` has nothing to state.
-/
import proofs.«163621_j26628797235368_1_alg».proof.Defs
import proofs.«163621_j26628797235368_1_alg».proof.Proof.Gen.Kernel
import proofs.«163621_j26628797235368_1_alg».proof.Proof.Gen.Kernel.Frame
import proofs.«163621_j26628797235368_1_alg».proof.Proof.Gen.KernelIdeal
import proofs.«163621_j26628797235368_1_alg».proof.Proof.Gen.KernelIdeal.Frame
import proofs.«163621_j26628797235368_1_alg».proof.Proof.Gen.ReferenceIdeal
import proofs.«163621_j26628797235368_1_alg».proof.Proof.Gen.Pre_finite_inputs
import proofs.«163621_j26628797235368_1_alg».proof.Proof.KernelValue
import proofs.«163621_j26628797235368_1_alg».proof.Proof.KernelWRun
import proofs.«163621_j26628797235368_1_alg».proof.Proof.RefRun
import proofs.«163621_j26628797235368_1_alg».proof.Proof.Bridge
import proofs.«163621_j26628797235368_1_alg».proof.Proof.Finite
import Idealize.ShloMosaic.Adequacy
import Idealize.ShloMosaic.Init

noncomputable section

namespace Cert.Proof

open Idealize.ShloMosaic Idealize.SL.Sem

/-- The word-level kernel program runs and keeps its arguments: the generated frame certificate. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.HandRun.run (F := Ideal) m ρ)

/-- The ideal pass rewrote no operation. -/
theorem preserves : Cert.preserves_Kernel_KernelIdeal := trivial

/-- From memories agreeing on the four arguments, all entries real: the kernel's program ends with its result at the
    reshaped product `x · W`, the reference's at its own term, and the two are one array. -/
theorem algebraic : Cert.algebraic_KernelIdeal_ReferenceIdeal := by
  intro m ρ m' ρ' hpre hagree
  refine ⟨fun c => shapeCast Cert.KernelIdeal.S262144x8x3x3x3x3
      (Cert.KernelIdeal.KVal.prod (m ((c.tc : Thread Cert.KernelIdeal.nD Cert.KernelIdeal.τ).loc Cert.KernelIdeal.main_arg0))
        (Cert.KernelIdeal.Gen.V m c Cert.KernelIdeal.main_v129))
      Cert.KernelIdeal.Gen.shapeCasts_S262144x648_S262144x8x3x3x3x3,
    Cert.KernelIdeal.KVal.run m ρ, ?_⟩
  refine (θ_run Cert.ReferenceIdeal.defs _ _).mono (fun _ h c => ⟨(h c).1.trans ?_, (h c).2⟩)
    (Cert.ReferenceIdeal.HandRun.run (F := Ideal) m' ρ')
  obtain ⟨hx, h4, h2, h0⟩ := Cert.Finite.real_of_pre _ _ _ _ (hpre c)
  beta_reduce
  rw [(hagree c).1, (hagree c).2.1, (hagree c).2.2.1, (hagree c).2.2.2, Cert.KernelIdeal.KW.W_eq m c]
  exact Cert.Bridge.result_eq _ _ _ _ hx h4 h2 h0

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
